-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256x128 : Shape := ⟨3, ![2048, 256, 128]⟩
abbrev S256x11 : Shape := ⟨2, ![256, 11]⟩
abbrev S2816 : Shape := ⟨1, ![2816]⟩
abbrev S_ : Shape := ⟨0, ![]⟩

class Facts : Prop where
  bcast_S_S2048x256x128 : S_.BroadcastsInDim S2048x256x128 (![] : Fin 0 → Fin S2048x256x128.rank)
  reducesTo_S2048x256x128_S_d0_1_2 : S2048x256x128.ReducesTo [0, 1, 2] S_
  h_S_ : 0 < S_.numel
  bcast_S_S2816 : S_.BroadcastsInDim S2816 (![] : Fin 0 → Fin S2816.rank)
  reducesTo_S2816_S_d0 : S2816.ReducesTo [0] S_
  bcast_S_S256x11 : S_.BroadcastsInDim S256x11 (![] : Fin 0 → Fin S256x11.rank)
  reducesTo_S256x11_S_d0_1 : S256x11.ReducesTo [0, 1] S_

variable [Facts]

def fn_part2 {F : FTy → Type} [FloatOps F] (main_arg4 : IVec S256x11 32) (main_arg5 : IVec S256x11 32) (main_v32 : IVec S_ 1) (main_c_12 : IVec S_ 32) : IVec S_ 1 :=
  let main_v33 : IVec S256x11 32 := broadcastInDim S256x11 ![] bcast_S_S256x11 main_c_12
  let main_v34 : IVec S256x11 1 := cmpi .sge main_arg4 main_v33
  let main_c_13 : IVec S_ 32 := constantI S_ 32 2048#32
  let main_v35 : IVec S256x11 32 := broadcastInDim S256x11 ![] bcast_S_S256x11 main_c_13
  let main_v36 : IVec S256x11 1 := cmpi .slt main_arg4 main_v35
  let main_v37 : IVec S256x11 1 := andi main_v34 main_v36
  let main_c_14 : IVec S_ 1 := constantI S_ 1 1#1
  let main_v38 : IVec S_ 1 := (fun x v => Host.reduce IntOp.andi x v reducesTo_S256x11_S_d0_1 h_S_) main_v37 main_c_14
  let main_v39 : IVec S_ 1 := andi main_v32 main_v38
  let main_c_15 : IVec S_ 32 := constantI S_ 32 0#32
  let main_v40 : IVec S256x11 32 := broadcastInDim S256x11 ![] bcast_S_S256x11 main_c_15
  let main_v41 : IVec S256x11 1 := cmpi .sge main_arg5 main_v40
  let main_c_16 : IVec S_ 32 := constantI S_ 32 2048#32
  let main_v42 : IVec S256x11 32 := broadcastInDim S256x11 ![] bcast_S_S256x11 main_c_16
  let main_v43 : IVec S256x11 1 := cmpi .slt main_arg5 main_v42
  let main_v44 : IVec S256x11 1 := andi main_v41 main_v43
  let main_c_17 : IVec S_ 1 := constantI S_ 1 1#1
  let main_v45 : IVec S_ 1 := (fun x v => Host.reduce IntOp.andi x v reducesTo_S256x11_S_d0_1 h_S_) main_v44 main_c_17
  let main_v46 : IVec S_ 1 := andi main_v39 main_v45
  main_v46

def fn_part1 {F : FTy → Type} [FloatOps F] (main_arg2 : IVec S256x11 32) (main_arg3 : IVec S256x11 32) (main_arg4 : IVec S256x11 32) (main_arg5 : IVec S256x11 32) (main_v13 : IVec S_ 1) (main_v16 : IVec S2816 1) : IVec S_ 1 :=
  let main_c_5 : IVec S_ 1 := constantI S_ 1 1#1
  let main_v17 : IVec S_ 1 := (fun x v => Host.reduce IntOp.andi x v reducesTo_S2816_S_d0 h_S_) main_v16 main_c_5
  let main_v18 : IVec S_ 1 := andi main_v13 main_v17
  let main_c_6 : IVec S_ 32 := constantI S_ 32 0#32
  let main_v19 : IVec S256x11 32 := broadcastInDim S256x11 ![] bcast_S_S256x11 main_c_6
  let main_v20 : IVec S256x11 1 := cmpi .sge main_arg2 main_v19
  let main_c_7 : IVec S_ 32 := constantI S_ 32 2048#32
  let main_v21 : IVec S256x11 32 := broadcastInDim S256x11 ![] bcast_S_S256x11 main_c_7
  let main_v22 : IVec S256x11 1 := cmpi .slt main_arg2 main_v21
  let main_v23 : IVec S256x11 1 := andi main_v20 main_v22
  let main_c_8 : IVec S_ 1 := constantI S_ 1 1#1
  let main_v24 : IVec S_ 1 := (fun x v => Host.reduce IntOp.andi x v reducesTo_S256x11_S_d0_1 h_S_) main_v23 main_c_8
  let main_v25 : IVec S_ 1 := andi main_v18 main_v24
  let main_c_9 : IVec S_ 32 := constantI S_ 32 0#32
  let main_v26 : IVec S256x11 32 := broadcastInDim S256x11 ![] bcast_S_S256x11 main_c_9
  let main_v27 : IVec S256x11 1 := cmpi .sge main_arg3 main_v26
  let main_c_10 : IVec S_ 32 := constantI S_ 32 2048#32
  let main_v28 : IVec S256x11 32 := broadcastInDim S256x11 ![] bcast_S_S256x11 main_c_10
  let main_v29 : IVec S256x11 1 := cmpi .slt main_arg3 main_v28
  let main_v30 : IVec S256x11 1 := andi main_v27 main_v29
  let main_c_11 : IVec S_ 1 := constantI S_ 1 1#1
  let main_v31 : IVec S_ 1 := (fun x v => Host.reduce IntOp.andi x v reducesTo_S256x11_S_d0_1 h_S_) main_v30 main_c_11
  let main_v32 : IVec S_ 1 := andi main_v25 main_v31
  let main_c_12 : IVec S_ 32 := constantI S_ 32 0#32
  fn_part2 (F := F) main_arg4 main_arg5 main_v32 main_c_12

def fn {F : FTy → Type} [FloatOps F] (main_arg0 : FVec F S2048x256x128 .f32) (main_arg1 : FVec F S2048x256x128 .f32) (main_arg2 : IVec S256x11 32) (main_arg3 : IVec S256x11 32) (main_arg4 : IVec S256x11 32) (main_arg5 : IVec S256x11 32) (main_arg6 : FVec F S2816 .f32) (main_arg7 : FVec F S2816 .f32) : IVec S_ 1 :=
  let main_v0 : FVec F S2048x256x128 .f32 := Host.absf main_arg0
  let main_cst : FVec F S_ .f32 := constant S_ .f32 0x7F800000#32
  let main_v1 : FVec F S2048x256x128 .f32 := broadcastInDim S2048x256x128 ![] bcast_S_S2048x256x128 main_cst
  let main_v2 : IVec S2048x256x128 1 := cmpf .olt main_v0 main_v1
  let main_c : IVec S_ 1 := constantI S_ 1 1#1
  let main_v3 : IVec S_ 1 := (fun x v => Host.reduce IntOp.andi x v reducesTo_S2048x256x128_S_d0_1_2 h_S_) main_v2 main_c
  let main_v4 : FVec F S2048x256x128 .f32 := Host.absf main_arg1
  let main_cst_0 : FVec F S_ .f32 := constant S_ .f32 0x7F800000#32
  let main_v5 : FVec F S2048x256x128 .f32 := broadcastInDim S2048x256x128 ![] bcast_S_S2048x256x128 main_cst_0
  let main_v6 : IVec S2048x256x128 1 := cmpf .olt main_v4 main_v5
  let main_c_1 : IVec S_ 1 := constantI S_ 1 1#1
  let main_v7 : IVec S_ 1 := (fun x v => Host.reduce IntOp.andi x v reducesTo_S2048x256x128_S_d0_1_2 h_S_) main_v6 main_c_1
  let main_v8 : IVec S_ 1 := andi main_v3 main_v7
  let main_v9 : FVec F S2816 .f32 := Host.absf main_arg6
  let main_cst_2 : FVec F S_ .f32 := constant S_ .f32 0x7F800000#32
  let main_v10 : FVec F S2816 .f32 := broadcastInDim S2816 ![] bcast_S_S2816 main_cst_2
  let main_v11 : IVec S2816 1 := cmpf .olt main_v9 main_v10
  let main_c_3 : IVec S_ 1 := constantI S_ 1 1#1
  let main_v12 : IVec S_ 1 := (fun x v => Host.reduce IntOp.andi x v reducesTo_S2816_S_d0 h_S_) main_v11 main_c_3
  let main_v13 : IVec S_ 1 := andi main_v8 main_v12
  let main_v14 : FVec F S2816 .f32 := Host.absf main_arg7
  let main_cst_4 : FVec F S_ .f32 := constant S_ .f32 0x7F800000#32
  let main_v15 : FVec F S2816 .f32 := broadcastInDim S2816 ![] bcast_S_S2816 main_cst_4
  let main_v16 : IVec S2816 1 := cmpf .olt main_v14 main_v15
  fn_part1 (F := F) main_arg2 main_arg3 main_arg4 main_arg5 main_v13 main_v16
-- ==== Kernel.lean ====
abbrev S2048x256x128 : Shape := ⟨3, ![2048, 256, 128]⟩
abbrev S256x11 : Shape := ⟨2, ![256, 11]⟩
abbrev S2816 : Shape := ⟨1, ![2816]⟩
abbrev S256x11x1 : Shape := ⟨3, ![256, 11, 1]⟩
abbrev S1x1 : Shape := ⟨2, ![1, 1]⟩
abbrev S8x11 : Shape := ⟨2, ![8, 11]⟩
abbrev S8x11x1 : Shape := ⟨3, ![8, 11, 1]⟩
abbrev S2048x8x128 : Shape := ⟨3, ![2048, 8, 128]⟩
abbrev S11x2048 : Shape := ⟨2, ![11, 2048]⟩
abbrev S11x1 : Shape := ⟨2, ![11, 1]⟩
abbrev S1x11 : Shape := ⟨2, ![1, 11]⟩
abbrev S11 : Shape := ⟨1, ![11]⟩
abbrev S2048x1x128 : Shape := ⟨3, ![2048, 1, 128]⟩
abbrev S2048x128 : Shape := ⟨2, ![2048, 128]⟩
abbrev S11x128 : Shape := ⟨2, ![11, 128]⟩
abbrev S1x11x1 : Shape := ⟨3, ![1, 11, 1]⟩
abbrev S_ : Shape := ⟨0, ![]⟩

abbrev nBuf : Space → Nat
  | .hbm => 12
  | .vmem => 18
  | .smem => 0
  | _ => 0

abbrev bufTy : (tb : Table) → Fin (tcTables nBuf tb) → BufTy
  | .hbm, ⟨0, _⟩ => ⟨S2048x256x128, .f32⟩
  | .hbm, ⟨1, _⟩ => ⟨S2048x256x128, .f32⟩
  | .hbm, ⟨2, _⟩ => ⟨S256x11, .i32⟩
  | .hbm, ⟨3, _⟩ => ⟨S256x11, .i32⟩
  | .hbm, ⟨4, _⟩ => ⟨S256x11, .i32⟩
  | .hbm, ⟨5, _⟩ => ⟨S256x11, .i32⟩
  | .hbm, ⟨6, _⟩ => ⟨S2816, .f32⟩
  | .hbm, ⟨7, _⟩ => ⟨S2816, .f32⟩
  | .hbm, ⟨8, _⟩ => ⟨S256x11x1, .f32⟩
  | .hbm, ⟨9, _⟩ => ⟨S256x11x1, .f32⟩
  | .hbm, ⟨10, _⟩ => ⟨S1x1, .f32⟩
  | .hbm, ⟨11, _⟩ => ⟨S_, .f32⟩
  | .local _ .vmem, ⟨0, _⟩ => ⟨S8x11, .i32⟩
  | .local _ .vmem, ⟨1, _⟩ => ⟨S8x11, .i32⟩
  | .local _ .vmem, ⟨2, _⟩ => ⟨S8x11, .i32⟩
  | .local _ .vmem, ⟨3, _⟩ => ⟨S8x11, .i32⟩
  | .local _ .vmem, ⟨4, _⟩ => ⟨S8x11, .i32⟩
  | .local _ .vmem, ⟨5, _⟩ => ⟨S8x11, .i32⟩
  | .local _ .vmem, ⟨6, _⟩ => ⟨S8x11, .i32⟩
  | .local _ .vmem, ⟨7, _⟩ => ⟨S8x11, .i32⟩
  | .local _ .vmem, ⟨8, _⟩ => ⟨S8x11x1, .f32⟩
  | .local _ .vmem, ⟨9, _⟩ => ⟨S8x11x1, .f32⟩
  | .local _ .vmem, ⟨10, _⟩ => ⟨S8x11x1, .f32⟩
  | .local _ .vmem, ⟨11, _⟩ => ⟨S8x11x1, .f32⟩
  | .local _ .vmem, ⟨12, _⟩ => ⟨S2048x8x128, .f32⟩
  | .local _ .vmem, ⟨13, _⟩ => ⟨S2048x8x128, .f32⟩
  | .local _ .vmem, ⟨14, _⟩ => ⟨S2048x8x128, .f32⟩
  | .local _ .vmem, ⟨15, _⟩ => ⟨S2048x8x128, .f32⟩
  | .local _ .vmem, ⟨16, _⟩ => ⟨S1x1, .f32⟩
  | .local _ .vmem, ⟨17, _⟩ => ⟨S1x1, .f32⟩
  | _, _ => ⟨S2048x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v588 : BitVec 1 := Scalar.cmpi .eq arg0 c31_i32
  let v589 : BitVec 32 := Scalar.extui v588
  let c0_i32_239 : BitVec 32 := 0#32
  let v590 : BitVec 1 := Scalar.cmpi .ne v589 c0_i32_239
  v590

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x11 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x11 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x11 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x11 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x11x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x11x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S2816_S256x11x1 : S2816.ShapeCasts S256x11x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S11x2048_d1_w32 : S11x2048.Iotas .tc 32 [1]
  inb_S8x11_S1x11_0_0 : ∀ a, (![0, 0] : Fin 2 → Nat) a + S1x11.size a ≤ S8x11.size a
  h_S1x11 : 0 < S1x11.numel
  shapeCasts_S1x11_S11 : S1x11.ShapeCasts S11
  inb_S2048x8x128_S2048x1x128_0_0_0 : ∀ a, (![0, 0, 0] : Fin 3 → Nat) a + S2048x1x128.size a ≤ S2048x8x128.size a
  h_S2048x1x128 : 0 < S2048x1x128.numel
  shapeCasts_S2048x1x128_S2048x128 : S2048x1x128.ShapeCasts S2048x128
  bitsLt_bf16_f32 : FTy.bits .bf16 < FTy.bits .f32
  shapeCasts_S11_S11x1 : S11.ShapeCasts S11x1
  broadcasts_S11x1_S11x2048 : S11x1.Broadcasts S11x2048
  natLt_1_32 : 1 < 32
  reduces_S11x128_S11 : S11x128.Reduces [1] S11
  inb_S8x11x1_S1x11x1_0_0_0 : ∀ a, (![0, 0, 0] : Fin 3 → Nat) a + S1x11x1.size a ≤ S8x11x1.size a
  h_S1x11x1 : 0 < S1x11x1.numel
  shapeCasts_S1x11x1_S11x1 : S1x11x1.ShapeCasts S11x1
  inb_S8x11_S1x11_1_0 : ∀ a, (![1, 0] : Fin 2 → Nat) a + S1x11.size a ≤ S8x11.size a
  inb_S2048x8x128_S2048x1x128_0_1_0 : ∀ a, (![0, 1, 0] : Fin 3 → Nat) a + S2048x1x128.size a ≤ S2048x8x128.size a
  inb_S8x11x1_S1x11x1_1_0_0 : ∀ a, (![1, 0, 0] : Fin 3 → Nat) a + S1x11x1.size a ≤ S8x11x1.size a
  inb_S8x11_S1x11_2_0 : ∀ a, (![2, 0] : Fin 2 → Nat) a + S1x11.size a ≤ S8x11.size a
  inb_S2048x8x128_S2048x1x128_0_2_0 : ∀ a, (![0, 2, 0] : Fin 3 → Nat) a + S2048x1x128.size a ≤ S2048x8x128.size a
  inb_S8x11x1_S1x11x1_2_0_0 : ∀ a, (![2, 0, 0] : Fin 3 → Nat) a + S1x11x1.size a ≤ S8x11x1.size a
  inb_S8x11_S1x11_3_0 : ∀ a, (![3, 0] : Fin 2 → Nat) a + S1x11.size a ≤ S8x11.size a
  inb_S2048x8x128_S2048x1x128_0_3_0 : ∀ a, (![0, 3, 0] : Fin 3 → Nat) a + S2048x1x128.size a ≤ S2048x8x128.size a
  inb_S8x11x1_S1x11x1_3_0_0 : ∀ a, (![3, 0, 0] : Fin 3 → Nat) a + S1x11x1.size a ≤ S8x11x1.size a
  inb_S8x11_S1x11_4_0 : ∀ a, (![4, 0] : Fin 2 → Nat) a + S1x11.size a ≤ S8x11.size a
  inb_S2048x8x128_S2048x1x128_0_4_0 : ∀ a, (![0, 4, 0] : Fin 3 → Nat) a + S2048x1x128.size a ≤ S2048x8x128.size a
  inb_S8x11x1_S1x11x1_4_0_0 : ∀ a, (![4, 0, 0] : Fin 3 → Nat) a + S1x11x1.size a ≤ S8x11x1.size a
  inb_S8x11_S1x11_5_0 : ∀ a, (![5, 0] : Fin 2 → Nat) a + S1x11.size a ≤ S8x11.size a
  inb_S2048x8x128_S2048x1x128_0_5_0 : ∀ a, (![0, 5, 0] : Fin 3 → Nat) a + S2048x1x128.size a ≤ S2048x8x128.size a
  inb_S8x11x1_S1x11x1_5_0_0 : ∀ a, (![5, 0, 0] : Fin 3 → Nat) a + S1x11x1.size a ≤ S8x11x1.size a
  inb_S8x11_S1x11_6_0 : ∀ a, (![6, 0] : Fin 2 → Nat) a + S1x11.size a ≤ S8x11.size a
  inb_S2048x8x128_S2048x1x128_0_6_0 : ∀ a, (![0, 6, 0] : Fin 3 → Nat) a + S2048x1x128.size a ≤ S2048x8x128.size a
  inb_S8x11x1_S1x11x1_6_0_0 : ∀ a, (![6, 0, 0] : Fin 3 → Nat) a + S1x11x1.size a ≤ S8x11x1.size a
  inb_S8x11_S1x11_7_0 : ∀ a, (![7, 0] : Fin 2 → Nat) a + S1x11.size a ≤ S8x11.size a
  inb_S2048x8x128_S2048x1x128_0_7_0 : ∀ a, (![0, 7, 0] : Fin 3 → Nat) a + S2048x1x128.size a ≤ S2048x8x128.size a
  inb_S8x11x1_S1x11x1_7_0_0 : ∀ a, (![7, 0, 0] : Fin 3 → Nat) a + S1x11x1.size a ≤ S8x11x1.size a
  shapeCasts_S1x1_S_ : S1x1.ShapeCasts S_
  dot_S11x2048_S2048x128_S11x128_1_0_0_1_n_n_wf : DotDims.WF S11x2048 S2048x128 S11x128 [1] [0] [0] [1] [] []
  dot_S1x11_S11x1_S1x1_1_0_0_1_n_n_wf : DotDims.WF S1x11 S11x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x11.size a ≤ S256x11.size a
  hwx0_0 : ∀ i : grid0.Coords, EltTy.bits .i32 = 32 ∨ (Rect.block (s := S256x11) S8x11.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x11.size a ≤ S256x11.size a
  hwx0_1 : ∀ i : grid0.Coords, EltTy.bits .i32 = 32 ∨ (Rect.block (s := S256x11) S8x11.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x11.size a ≤ S256x11.size a
  hwx0_2 : ∀ i : grid0.Coords, EltTy.bits .i32 = 32 ∨ (Rect.block (s := S256x11) S8x11.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x11.size a ≤ S256x11.size a
  hwx0_3 : ∀ i : grid0.Coords, EltTy.bits .i32 = 32 ∨ (Rect.block (s := S256x11) S8x11.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x11x1.size a ≤ S256x11x1.size a
  hwx0_4 : ∀ i : grid0.Coords, EltTy.bits .f32 = 32 ∨ (Rect.block (s := S256x11x1) S8x11x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x11x1.size a ≤ S256x11x1.size a
  hwx0_5 : ∀ i : grid0.Coords, EltTy.bits .f32 = 32 ∨ (Rect.block (s := S256x11x1) S8x11x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x8x128.size a ≤ S2048x256x128.size a
  hwx0_6 : ∀ i : grid0.Coords, EltTy.bits .f32 = 32 ∨ (Rect.block (s := S2048x256x128) S2048x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x8x128.size a ≤ S2048x256x128.size a
  hwx0_7 : ∀ i : grid0.Coords, EltTy.bits .f32 = 32 ∨ (Rect.block (s := S2048x256x128) S2048x8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def dot_S11x2048_S2048x128_S11x128_1_0_0_1_n_n : DotDims S11x2048 S2048x128 S11x128 where
  lhsContracting := [1]
  rhsContracting := [0]
  lhsNonContracting := [0]
  rhsNonContracting := [1]
  lhsBatch := []
  rhsBatch := []
  wf := dot_S11x2048_S2048x128_S11x128_1_0_0_1_n_n_wf
def dot_S1x11_S11x1_S1x1_1_0_0_1_n_n : DotDims S1x11 S11x1 S1x1 where
  lhsContracting := [1]
  rhsContracting := [0]
  lhsNonContracting := [0]
  rhsNonContracting := [1]
  lhsBatch := []
  rhsBatch := []
  wf := dot_S1x11_S11x1_S1x1_1_0_0_1_n_n_wf

abbrev win0_0 : Pipeline.Window sig grid0 :=
  Pipeline.Window.ofSpec (Memref.whole main_arg2) S8x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x11.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8x11.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x11x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x11x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S2048x8x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S2048x8x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2048x256x128 : Shape := ⟨3, ![2048, 256, 128]⟩
abbrev S256x11 : Shape := ⟨2, ![256, 11]⟩
abbrev S2816 : Shape := ⟨1, ![2816]⟩
abbrev S256 : Shape := ⟨1, ![256]⟩
abbrev S256x1 : Shape := ⟨2, ![256, 1]⟩
abbrev S_ : Shape := ⟨0, ![]⟩
abbrev S256x11x1 : Shape := ⟨3, ![256, 11, 1]⟩
abbrev S256x11x2 : Shape := ⟨3, ![256, 11, 2]⟩
abbrev S256x11x128 : Shape := ⟨3, ![256, 11, 128]⟩
abbrev S2816x128 : Shape := ⟨2, ![2816, 128]⟩

abbrev nBuf : Space → Nat
  | .hbm => 125
  | .vmem => 0
  | .smem => 0
  | _ => 0

abbrev bufTy : (tb : Table) → Fin (tcTables nBuf tb) → BufTy
  | .hbm, ⟨0, _⟩ => ⟨S2048x256x128, .f32⟩
  | .hbm, ⟨1, _⟩ => ⟨S2048x256x128, .f32⟩
  | .hbm, ⟨2, _⟩ => ⟨S256x11, .i32⟩
  | .hbm, ⟨3, _⟩ => ⟨S256x11, .i32⟩
  | .hbm, ⟨4, _⟩ => ⟨S256x11, .i32⟩
  | .hbm, ⟨5, _⟩ => ⟨S256x11, .i32⟩
  | .hbm, ⟨6, _⟩ => ⟨S2816, .f32⟩
  | .hbm, ⟨7, _⟩ => ⟨S2816, .f32⟩
  | .hbm, ⟨8, _⟩ => ⟨S256, .i32⟩
  | .hbm, ⟨9, _⟩ => ⟨S256x1, .i32⟩
  | .hbm, ⟨10, _⟩ => ⟨S_, .i32⟩
  | .hbm, ⟨11, _⟩ => ⟨S256x11, .i32⟩
  | .hbm, ⟨12, _⟩ => ⟨S256x11, .i1⟩
  | .hbm, ⟨13, _⟩ => ⟨S_, .i32⟩
  | .hbm, ⟨14, _⟩ => ⟨S256x11, .i32⟩
  | .hbm, ⟨15, _⟩ => ⟨S256x11, .i32⟩
  | .hbm, ⟨16, _⟩ => ⟨S256x11, .i32⟩
  | .hbm, ⟨17, _⟩ => ⟨S_, .i32⟩
  | .hbm, ⟨18, _⟩ => ⟨S256x1, .i32⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S256x11, .i32⟩
  | .hbm, ⟨25, _⟩ => ⟨S256x11x1, .i32⟩
  | .hbm, ⟨26, _⟩ => ⟨S256x11x1, .i32⟩
  | .hbm, ⟨27, _⟩ => ⟨S256x11x2, .i32⟩
  | .hbm, ⟨28, _⟩ => ⟨S256x11x128, .f32⟩
  | .hbm, ⟨29, _⟩ => ⟨S2816x128, .f32⟩
  | .hbm, ⟨30, _⟩ => ⟨S256, .i32⟩
  | .hbm, ⟨31, _⟩ => ⟨S256x1, .i32⟩
  | .hbm, ⟨32, _⟩ => ⟨S_, .i32⟩
  | .hbm, ⟨33, _⟩ => ⟨S256x11, .i32⟩
  | .hbm, ⟨34, _⟩ => ⟨S256x11, .i1⟩
  | .hbm, ⟨35, _⟩ => ⟨S_, .i32⟩
  | .hbm, ⟨36, _⟩ => ⟨S256x11, .i32⟩
  | .hbm, ⟨37, _⟩ => ⟨S256x11, .i32⟩
  | .hbm, ⟨38, _⟩ => ⟨S256x11, .i32⟩
  | .hbm, ⟨39, _⟩ => ⟨S_, .i32⟩
  | .hbm, ⟨40, _⟩ => ⟨S256x1, .i32⟩
  | .hbm, ⟨41, _⟩ => ⟨S256x1, .i1⟩
  | .hbm, ⟨42, _⟩ => ⟨S_, .i32⟩
  | .hbm, ⟨43, _⟩ => ⟨S256x1, .i32⟩
  | .hbm, ⟨44, _⟩ => ⟨S256x1, .i32⟩
  | .hbm, ⟨45, _⟩ => ⟨S256x1, .i32⟩
  | .hbm, ⟨46, _⟩ => ⟨S256x11, .i32⟩
  | .hbm, ⟨47, _⟩ => ⟨S256x11x1, .i32⟩
  | .hbm, ⟨48, _⟩ => ⟨S256x11x1, .i32⟩
  | .hbm, ⟨49, _⟩ => ⟨S256x11x2, .i32⟩
  | .hbm, ⟨50, _⟩ => ⟨S256x11x128, .f32⟩
  | .hbm, ⟨51, _⟩ => ⟨S2816x128, .f32⟩
  | .hbm, ⟨52, _⟩ => ⟨S256, .i32⟩
  | .hbm, ⟨53, _⟩ => ⟨S256x1, .i32⟩
  | .hbm, ⟨54, _⟩ => ⟨S_, .i32⟩
  | .hbm, ⟨55, _⟩ => ⟨S256x11, .i32⟩
  | .hbm, ⟨56, _⟩ => ⟨S256x11, .i1⟩
  | .hbm, ⟨57, _⟩ => ⟨S_, .i32⟩
  | .hbm, ⟨58, _⟩ => ⟨S256x11, .i32⟩
  | .hbm, ⟨59, _⟩ => ⟨S256x11, .i32⟩
  | .hbm, ⟨60, _⟩ => ⟨S256x11, .i32⟩
  | .hbm, ⟨61, _⟩ => ⟨S_, .i32⟩
  | .hbm, ⟨62, _⟩ => ⟨S256x1, .i32⟩
  | .hbm, ⟨63, _⟩ => ⟨S256x1, .i1⟩
  | .hbm, ⟨64, _⟩ => ⟨S_, .i32⟩
  | .hbm, ⟨65, _⟩ => ⟨S256x1, .i32⟩
  | .hbm, ⟨66, _⟩ => ⟨S256x1, .i32⟩
  | .hbm, ⟨67, _⟩ => ⟨S256x1, .i32⟩
  | .hbm, ⟨68, _⟩ => ⟨S256x11, .i32⟩
  | .hbm, ⟨69, _⟩ => ⟨S256x11x1, .i32⟩
  | .hbm, ⟨70, _⟩ => ⟨S256x11x1, .i32⟩
  | .hbm, ⟨71, _⟩ => ⟨S256x11x2, .i32⟩
  | .hbm, ⟨72, _⟩ => ⟨S256x11x128, .f32⟩
  | .hbm, ⟨73, _⟩ => ⟨S2816x128, .f32⟩
  | .hbm, ⟨74, _⟩ => ⟨S256, .i32⟩
  | .hbm, ⟨75, _⟩ => ⟨S256x1, .i32⟩
  | .hbm, ⟨76, _⟩ => ⟨S_, .i32⟩
  | .hbm, ⟨77, _⟩ => ⟨S256x11, .i32⟩
  | .hbm, ⟨78, _⟩ => ⟨S256x11, .i1⟩
  | .hbm, ⟨79, _⟩ => ⟨S_, .i32⟩
  | .hbm, ⟨80, _⟩ => ⟨S256x11, .i32⟩
  | .hbm, ⟨81, _⟩ => ⟨S256x11, .i32⟩
  | .hbm, ⟨82, _⟩ => ⟨S256x11, .i32⟩
  | .hbm, ⟨83, _⟩ => ⟨S_, .i32⟩
  | .hbm, ⟨84, _⟩ => ⟨S256x1, .i32⟩
  | .hbm, ⟨85, _⟩ => ⟨S256x1, .i1⟩
  | .hbm, ⟨86, _⟩ => ⟨S_, .i32⟩
  | .hbm, ⟨87, _⟩ => ⟨S256x1, .i32⟩
  | .hbm, ⟨88, _⟩ => ⟨S256x1, .i32⟩
  | .hbm, ⟨89, _⟩ => ⟨S256x1, .i32⟩
  | .hbm, ⟨90, _⟩ => ⟨S256x11, .i32⟩
  | .hbm, ⟨91, _⟩ => ⟨S256x11x1, .i32⟩
  | .hbm, ⟨92, _⟩ => ⟨S256x11x1, .i32⟩
  | .hbm, ⟨93, _⟩ => ⟨S256x11x2, .i32⟩
  | .hbm, ⟨94, _⟩ => ⟨S256x11x128, .f32⟩
  | .hbm, ⟨95, _⟩ => ⟨S2816x128, .f32⟩
  | .hbm, ⟨96, _⟩ => ⟨S2816x128, .f32⟩
  | .hbm, ⟨97, _⟩ => ⟨S_, .f32⟩
  | .hbm, ⟨98, _⟩ => ⟨S2816x128, .f32⟩
  | .hbm, ⟨99, _⟩ => ⟨S2816x128, .f32⟩
  | .hbm, ⟨100, _⟩ => ⟨S2816x128, .f32⟩
  | .hbm, ⟨101, _⟩ => ⟨S_, .f32⟩
  | .hbm, ⟨102, _⟩ => ⟨S2816, .f32⟩
  | .hbm, ⟨103, _⟩ => ⟨S2816, .f32⟩
  | .hbm, ⟨104, _⟩ => ⟨S2816, .f32⟩
  | .hbm, ⟨105, _⟩ => ⟨S2816, .f32⟩
  | .hbm, ⟨106, _⟩ => ⟨S2816x128, .f32⟩
  | .hbm, ⟨107, _⟩ => ⟨S_, .f32⟩
  | .hbm, ⟨108, _⟩ => ⟨S2816x128, .f32⟩
  | .hbm, ⟨109, _⟩ => ⟨S2816x128, .f32⟩
  | .hbm, ⟨110, _⟩ => ⟨S2816x128, .f32⟩
  | .hbm, ⟨111, _⟩ => ⟨S_, .f32⟩
  | .hbm, ⟨112, _⟩ => ⟨S2816, .f32⟩
  | .hbm, ⟨113, _⟩ => ⟨S2816, .f32⟩
  | .hbm, ⟨114, _⟩ => ⟨S2816, .f32⟩
  | .hbm, ⟨115, _⟩ => ⟨S2816, .f32⟩
  | .hbm, ⟨116, _⟩ => ⟨S2816, .f32⟩
  | .hbm, ⟨117, _⟩ => ⟨S2816, .f32⟩
  | .hbm, ⟨118, _⟩ => ⟨S2816, .f32⟩
  | .hbm, ⟨119, _⟩ => ⟨S_, .f32⟩
  | .hbm, ⟨120, _⟩ => ⟨S_, .f32⟩
  | .hbm, ⟨121, _⟩ => ⟨S2816, .f32⟩
  | .hbm, ⟨122, _⟩ => ⟨S_, .f32⟩
  | .hbm, ⟨123, _⟩ => ⟨S_, .f32⟩
  | .hbm, ⟨124, _⟩ => ⟨S_, .f32⟩
  | _, _ => ⟨S2048x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_7 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_13 : Ref sig .tc := ⟨.hbm, 83, rfl⟩
abbrev main_v61 : Ref sig .tc := ⟨.hbm, 84, rfl⟩
abbrev main_v62 : Ref sig .tc := ⟨.hbm, 85, rfl⟩
abbrev main_c_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S256x11 : S_.BroadcastsInDim S256x11 (![] : Fin 0 → Fin S256x11.rank)
  bcast_S_S256x1 : S_.BroadcastsInDim S256x1 (![] : Fin 0 → Fin S256x1.rank)
  bcast_S256x1_S256x11_0_1 : S256x1.BroadcastsInDim S256x11 (![0, 1] : Fin 2 → Fin S256x11.rank)
  bcast_S256x11_S256x11x1_0_1 : S256x11.BroadcastsInDim S256x11x1 (![0, 1] : Fin 2 → Fin S256x11x1.rank)
  concatenates_S256x11x1_S256x11x1_S256x11x2_d2 : Shape.Concatenates [S256x11x1, S256x11x1] S256x11x2 2
  shapeCasts_S256x11x128_S2816x128 : S256x11x128.ShapeCasts S2816x128
  bcast_S_S2816x128 : S_.BroadcastsInDim S2816x128 (![] : Fin 0 → Fin S2816x128.rank)
  reducesTo_S2816x128_S2816_d1 : S2816x128.ReducesTo [1] S2816
  h_S_ : 0 < S_.numel
  reducesTo_S2816_S_d0 : S2816.ReducesTo [0] S_
  gather_S2048x256x128_S256x11x2_S256x11x128_2_01_n_n_01_2_11128_wf : GatherDims.WF S2048x256x128 S256x11x2 S256x11x128 [2] [0, 1] [] [0, 1] [] 2 ![1, 1, 128]

variable [Facts₀]

def gather_S2048x256x128_S256x11x2_S256x11x128_2_01_n_n_01_2_11128 : GatherDims S2048x256x128 S256x11x2 S256x11x128 where
  offsetDims := [2]
  collapsedSliceDims := [0, 1]
  operandBatchingDims := []
  startIndicesBatchingDims := []
  startIndexMap := [0, 1]
  indexVectorDim := 2
  sliceSizes := ![1, 1, 128]
  wf := gather_S2048x256x128_S256x11x2_S256x11x128_2_01_n_n_01_2_11128_wf

class Facts : Prop extends Facts₀ where

variable [Facts]
-- ==== Proof.Spec.lean ====
/-
  The specification both programs are compared with, on the extended reals.

  For batch column `b` and slot `k`, an index table names two rows of a `[2048, 256, 128]` array; the
  distance of the two rows in column `b` is `sqrt (∑_d (x[a, b, d] − x[e, b, d] + ε)²)`, the prediction
  `exp (−distance)`, the loss its difference with the target at flat position `11·b + k`, and the result
  the sum over all `(b, k)` of the squared losses of the "near" triple plus that of the "far" triple.
  Nothing here mentions a program: the two sides each prove that they compute `G`.
-/
import Idealize.ShloMosaic.Lib.ValueIdx
import Idealize.ShloMosaic.PureOps.Ideal

noncomputable section

namespace Cert.Spec

open Idealize.ShloMosaic Idealize.ShloMosaic.ValueIdx

/-- The two big arrays: `[2048, 256, 128]`. -/
abbrev SArr : Shape := ⟨3, ![2048, 256, 128]⟩
/-- An index table: `[256, 11]`. -/
abbrev STab : Shape := ⟨2, ![256, 11]⟩
/-- A target vector: `[2816]`, position `11·b + k` belonging to `(b, k)`. -/
abbrev STgt : Shape := ⟨1, ![2816]⟩
/-- The scalar result. -/
abbrev SOut : Shape := ⟨0, ![]⟩

/-- Every word of an index table names a row of the array it indexes: `0 ≤ w < 2048` as a signed integer. -/
def InRows (t : IVec STab 32) : Prop :=
  ∀ (b : Fin 256) (k : Fin 11), 0 ≤ (t (ix2 b k)).toInt ∧ (t (ix2 b k)).toInt < 2048

/-- The row a word names: its signed value clamped into `[0, 2047]` (the value itself when in range). -/
def rowOf (w : BitVec 32) : Fin 2048 := ⟨min w.toInt.toNat 2047, by omega⟩

/-- Position of `(b, k)` in a flattened `[256 · 11]` vector. -/
def flat (b : Fin 256) (k : Fin 11) : Fin 2816 := ⟨b.val * 11 + k.val, by omega⟩

/-- The additive constant under the square: the binary32 word both programs carry. -/
def eps : EReal := Ideal.ofBits .f32 0x358637BD#32

/-- `∑_d (x[a, b, d] − x[e, b, d] + ε)²`. -/
def sqDist (x : SArr.Idx → EReal) (a e : Fin 2048) (b : Fin 256) : EReal :=
  ∑ d : Fin 128, (x (ix3 a b d) - x (ix3 e b d) + eps) * (x (ix3 a b d) - x (ix3 e b d) + eps)

/-- `exp (−sqrt (squared distance)) − target` at `(b, k)`. -/
def loss (x : SArr.Idx → EReal) (ta te : IVec STab 32) (tg : STgt.Idx → EReal) (b : Fin 256) (k : Fin 11) : EReal :=
  Ideal.exp (-(Ideal.sqrt (sqDist x (rowOf (ta (ix2 b k))) (rowOf (te (ix2 b k))) b))) - tg (ix1 (flat b k))

/-- The squared loss at `(b, k)`. -/
def lossSq (x : SArr.Idx → EReal) (ta te : IVec STab 32) (tg : STgt.Idx → EReal) (b : Fin 256) (k : Fin 11) : EReal :=
  loss x ta te tg b k * loss x ta te tg b k

/-- THE RESULT: the near triple's squared losses summed over all `(b, k)`, plus the far triple's. -/
def G (near far : SArr.Idx → EReal) (na fa ne fe : IVec STab 32) (nt ft : STgt.Idx → EReal) : SOut.Idx → EReal :=
  fun _ => (∑ b : Fin 256, ∑ k : Fin 11, lossSq near na ne nt b k) + (∑ b : Fin 256, ∑ k : Fin 11, lossSq far fa fe ft b k)

end Cert.Spec

end
-- ==== Proof.PreDecode.lean ====
/-
  What the precondition says of the four index tables: every word names a row, `0 ≤ w < 2048`.

  The precondition is a chain of `and`s of eight all-reductions. The last four are, for each table `t`,
  the reduction by `and` of the mask `(t ≥ 0) ∧ (t < 2048)` taken word by word. A chain of `and`s on
  one-bit words is 1 only if every link is 1; a reduction by `and` from 1 is 1 only if every element of
  the mask is 1; and a signed comparison word is 1 exactly when the signed values compare so.
-/
import proofs.«429751_j85177791414540_3_alg».proof.Pre_finite_inputs
import proofs.«429751_j85177791414540_3_alg».proof.Proof.Spec
import Idealize.ShloMosaic.Lib.StableHlo.Predicate
import Idealize.ShloMosaic.Lib.ReduceAll

noncomputable section

namespace Cert.PreDecode

open Idealize.ShloMosaic Cert.Spec

variable [Cert.Pre_finite_inputs.Facts]

/-- The scalar shape has one index. -/
instance : Subsingleton Cert.Pre_finite_inputs.S_.Idx := ⟨fun _ _ => funext fun d => d.elim0⟩

/-- An `and` of two one-bit arrays that reads 1 at an index has both operands 1 there. -/
private theorem andi_at {s : Shape} (x y : IVec s 1) (i : s.Idx) (h : andi x y i = 1#1) :
    x i = 1#1 ∧ y i = 1#1 :=
  IntOp.andi_eq_one.1 h

/-- One table. If the reduction by `and`, over both axes, of the mask `(t ≥ 0) ∧ (t < 2048)` is 1,
    then every word of `t`, read signed, lies in `[0, 2048)`: each mask element is 1, so both of its
    comparison words are, and the broadcast constants read `0` and `2048` at every index. -/
private theorem table_inRows (t : IVec Cert.Pre_finite_inputs.S256x11 32) (init : IVec Cert.Pre_finite_inputs.S_ 1)
    (e : Host.reduce IntOp.andi
          (andi
            (cmpi .sge t (broadcastInDim Cert.Pre_finite_inputs.S256x11 ![]
              Cert.Pre_finite_inputs.Facts.bcast_S_S256x11 (constantI Cert.Pre_finite_inputs.S_ 32 0#32)))
            (cmpi .slt t (broadcastInDim Cert.Pre_finite_inputs.S256x11 ![]
              Cert.Pre_finite_inputs.Facts.bcast_S_S256x11 (constantI Cert.Pre_finite_inputs.S_ 32 2048#32))))
          init Cert.Pre_finite_inputs.Facts.reducesTo_S256x11_S_d0_1 Cert.Pre_finite_inputs.Facts.h_S_
          ValueIdx.ix0 = 1#1) :
    InRows t := by
  intro b k
  have hm := Host.reduce_andi_all _ _ _ _ _ e (ValueIdx.ix2 b k)
  obtain ⟨h1, h2⟩ := andi_at _ _ _ hm
  have h1' : (0#32 : BitVec 32).toInt ≤ (t (ValueIdx.ix2 b k)).toInt := IntOp.cmpi_sge.1 h1
  have h2' : (t (ValueIdx.ix2 b k)).toInt < (2048#32 : BitVec 32).toInt := IntOp.cmpi_slt.1 h2
  rw [show (0#32 : BitVec 32).toInt = 0 from by decide] at h1'
  rw [show (2048#32 : BitVec 32).toInt = 2048 from by decide] at h2'
  exact ⟨h1', h2'⟩

/-- The printed precondition, all ones, puts every word of each of the four index tables in `[0, 2048)`. -/
theorem inRows (a0 a1 : FVec Ideal Cert.Pre_finite_inputs.S2048x256x128 .f32)
    (a2 a3 a4 a5 : IVec Cert.Pre_finite_inputs.S256x11 32) (a6 a7 : FVec Ideal Cert.Pre_finite_inputs.S2816 .f32)
    (h : Cert.Pre_finite_inputs.fn (F := Ideal) a0 a1 a2 a3 a4 a5 a6 a7 = fun _ => 1#1) :
    InRows a2 ∧ InRows a3 ∧ InRows a4 ∧ InRows a5 := by
  have h0 := congrFun h ValueIdx.ix0
  dsimp only [Cert.Pre_finite_inputs.fn, Cert.Pre_finite_inputs.fn_part1, Cert.Pre_finite_inputs.fn_part2] at h0
  -- the chain is ((((floats ∧ m₂) ∧ m₃) ∧ m₄) ∧ m₅): peel the table masks off from the right
  obtain ⟨h0, h5⟩ := andi_at _ _ _ h0
  obtain ⟨h0, h4⟩ := andi_at _ _ _ h0
  obtain ⟨h0, h3⟩ := andi_at _ _ _ h0
  obtain ⟨_, h2⟩ := andi_at _ _ _ h0
  exact ⟨table_inRows a2 _ h2, table_inRows a3 _ h3, table_inRows a4 _ h4, table_inRows a5 _ h5⟩

end Cert.PreDecode

end
-- ==== Proof.LibGatherRows.lean ====
/-
  A row gather with two start-index columns, read at one element.

  jnp's `src[idx, arange(B)[:, None]]` over a rank-3 array `src : [S, B, D]` and an index table `idx : [B, K]`
  is a `stablehlo.gather` whose start indices are the `[B, K, 2]` table of pairs (row of `src`, batch
  column of `src`), both operand axes collapsed and start-indexed, the last axis an offset axis of full width.
  Result element `(b, k, j)` is `src` at (the first component of pair `(b, k)`, the second component, `j`),
  each component read SIGNED and CLAMPED into its axis (StableHLO's clamp): a negative component reads
  position 0, one past the end reads the last position.
-/
import Idealize.ShloMosaic.Lib.ValueIdx

noncomputable section

namespace Idealize.ShloMosaic.GatherRows

open Idealize.ShloMosaic Idealize.ShloMosaic.ValueIdx

variable {α : Type}

/-- The dimension numbers of the two-column row gather: operand `[S, B, D]`, start indices `[B, K, 2]`
    (the index vector on axis 2), result `[B, K, D]`; operand axes 0 and 1 collapsed and start-indexed,
    result axis 2 the offset axis over the whole of operand axis 2. The well-formedness conditions are
    decided on a program's literal shapes. -/
abbrev rowsDims (S B K D : Nat)
    (wf : GatherDims.WF ⟨3, ![S, B, D]⟩ ⟨3, ![B, K, 2]⟩ ⟨3, ![B, K, D]⟩ [2] [0, 1] [] [0, 1] [] 2 ![1, 1, D]) :
    GatherDims ⟨3, ![S, B, D]⟩ ⟨3, ![B, K, 2]⟩ ⟨3, ![B, K, D]⟩ where
  offsetDims := [2]
  collapsedSliceDims := [0, 1]
  operandBatchingDims := []
  startIndicesBatchingDims := []
  startIndexMap := [0, 1]
  indexVectorDim := 2
  sliceSizes := ![1, 1, D]
  wf := wf

/-- THE GATHER READ AT `(b, k, j)`: the operand at (pair `(b, k)`'s first component clamped into
    `[0, S − 1]`, its second component clamped into `[0, B − 1]`, `j`). -/
theorem gather_rows_apply {S B K D w : Nat} (hS : 0 < S) (hB : 0 < B)
    (wf : GatherDims.WF ⟨3, ![S, B, D]⟩ ⟨3, ![B, K, 2]⟩ ⟨3, ![B, K, D]⟩ [2] [0, 1] [] [0, 1] [] 2 ![1, 1, D])
    (x : (⟨3, ![S, B, D]⟩ : Shape).Idx → α) (idx : IVec ⟨3, ![B, K, 2]⟩ w) (b : Fin B) (k : Fin K) (j : Fin D) :
    Host.gather (rowsDims S B K D wf) x idx (ix3 b k j)
      = x (ix3 (⟨min (idx (ix3 b k (0 : Fin 2))).toInt.toNat (S - 1), by omega⟩ : Fin S)
               (⟨min (idx (ix3 b k (1 : Fin 2))).toInt.toNat (B - 1), by omega⟩ : Fin B) j) := by
  unfold Host.gather
  congr 1
  funext a
  refine Fin.ext ?_
  show (rowsDims S B K D wf).start (ix3 b k j) idx a + (rowsDims S B K D wf).batchCoord (ix3 b k j) a
      + (rowsDims S B K D wf).offCoord (ix3 b k j) a = _
  rw [GatherDims.batchCoord_eq_zero _ _ _ List.not_mem_nil]
  match a with
  | ⟨0, _⟩ =>
    show (rowsDims S B K D wf).start (ix3 b k j) idx (0 : Fin 3) + 0 + (rowsDims S B K D wf).offCoord (ix3 b k j) (0 : Fin 3)
      = min (idx (ix3 b k (0 : Fin 2))).toInt.toNat (S - 1)
    rw [GatherDims.offCoord_eq_zero _ _ _ (fun h => ((GatherDims.mem_sKept _ _).mp h).1
      (show (0 : Fin 3) ∈ ([0, 1] : List (Fin 3)) by decide))]
    simp only [Nat.add_zero]
    unfold GatherDims.start
    rw [dif_pos (show (0 : Fin 3) ∈ ([0, 1] : List (Fin 3)) by decide)]
    have hsi : (rowsDims S B K D wf).siIdx (ix3 b k j) ⟨List.idxOf (0 : Fin 3) ([0, 1] : List (Fin 3)),
        show List.idxOf (0 : Fin 3) ([0, 1] : List (Fin 3)) < ([0, 1] : List (Fin 3)).length by decide⟩
        = ix3 b k (0 : Fin 2) := by
      funext c; refine Fin.ext ?_
      match c with
      | ⟨0, _⟩ => rfl
      | ⟨1, _⟩ => rfl
      | ⟨2, _⟩ => rfl
    rw [hsi]
    rfl
  | ⟨1, _⟩ =>
    show (rowsDims S B K D wf).start (ix3 b k j) idx (1 : Fin 3) + 0 + (rowsDims S B K D wf).offCoord (ix3 b k j) (1 : Fin 3)
      = min (idx (ix3 b k (1 : Fin 2))).toInt.toNat (B - 1)
    rw [GatherDims.offCoord_eq_zero _ _ _ (fun h => ((GatherDims.mem_sKept _ _).mp h).1
      (show (1 : Fin 3) ∈ ([0, 1] : List (Fin 3)) by decide))]
    simp only [Nat.add_zero]
    unfold GatherDims.start
    rw [dif_pos (show (1 : Fin 3) ∈ ([0, 1] : List (Fin 3)) by decide)]
    have hsi : (rowsDims S B K D wf).siIdx (ix3 b k j) ⟨List.idxOf (1 : Fin 3) ([0, 1] : List (Fin 3)),
        show List.idxOf (1 : Fin 3) ([0, 1] : List (Fin 3)) < ([0, 1] : List (Fin 3)).length by decide⟩
        = ix3 b k (1 : Fin 2) := by
      funext c; refine Fin.ext ?_
      match c with
      | ⟨0, _⟩ => rfl
      | ⟨1, _⟩ => rfl
      | ⟨2, _⟩ => rfl
    rw [hsi]
    rfl
  | ⟨2, _⟩ =>
    show (rowsDims S B K D wf).start (ix3 b k j) idx (2 : Fin 3) + 0 + (rowsDims S B K D wf).offCoord (ix3 b k j) (2 : Fin 3)
      = j.val
    unfold GatherDims.start GatherDims.offCoord
    rw [dif_neg (show ¬ (2 : Fin 3) ∈ ([0, 1] : List (Fin 3)) by decide),
      dif_pos ((GatherDims.mem_sKept (rowsDims S B K D wf) (2 : Fin 3)).mpr
        ⟨show ¬ (2 : Fin 3) ∈ ([0, 1] : List (Fin 3)) by decide, List.not_mem_nil⟩)]
    simp only [Nat.zero_add]
    rfl

end Idealize.ShloMosaic.GatherRows

end
-- ==== Proof.RefValueIdx.lean ====
/-
  Index arithmetic and the row read under the reference's result, with no program in sight.

  A start-index word that is not negative passes the "shift a negative index by the extent" select unchanged;
  a two-column start-index table made of the index words and the batch-column numbers makes the row gather
  read, at batch column b and slot k, the row the word names in column b; a flat position 11·b + k of
  a [2816] vector belongs to (b, k), so a sum over the vector is the double sum over (b, k).
-/
import Idealize.ShloMosaic.Lib.ValueIdx
import Idealize.ShloMosaic.Lib.Pipeline.Value
import Idealize.ShloMosaic.Lib.Affine
import Idealize.ShloMosaic.Lib.DynamicIndex
import proofs.«429751_j85177791414540_3_alg».proof.Proof.Spec
import proofs.«429751_j85177791414540_3_alg».proof.Proof.LibGatherRows

noncomputable section

namespace Cert.RefValueIdx

open Idealize.ShloMosaic Idealize.ShloMosaic.ValueIdx Idealize.ShloMosaic.GatherRows Cert.Spec

/-- The select "if the word is negative take the shifted word, else the word" on a word that is not negative
    is the word. -/
theorem select_wrap_of_nonneg (w e : BitVec 32) (h : 0 ≤ w.toInt) :
    Scalar.select (IntOp.cmpi .slt w 0#32) (IntOp.addi w e) w = w := by
  have hc : IntOp.cmpi .slt w 0#32 = 0#1 := by
    refine eq_zero_of_ne_one fun h1 => ?_
    have := IntOp.cmpi_slt.mp h1
    rw [BitVec.toInt_zero] at this
    omega
  rw [hc, select_zero]

/-- A batch-column number as a 32-bit word is not negative. -/
theorem col_nonneg (b : Fin 256) : 0 ≤ (BitVec.ofNat 32 b.val).toInt := by
  rw [toInt_ofNat_of_lt (by have := b.isLt; omega)]
  omega

/-- The same select on a batch-column number. -/
theorem select_wrap_col (b : Fin 256) (e : BitVec 32) :
    Scalar.select (IntOp.cmpi .slt (BitVec.ofNat 32 b.val) 0#32) (IntOp.addi (BitVec.ofNat 32 b.val) e) (BitVec.ofNat 32 b.val)
      = BitVec.ofNat 32 b.val :=
  select_wrap_of_nonneg _ _ (col_nonneg b)

/-- The row gather over a start-index table whose pair at (b, k) is (a word, the batch-column number b):
    element (b, k, j) is the array at (the row the word names, b, j). -/
theorem gather_word {α : Type}
    (wf : GatherDims.WF ⟨3, ![2048, 256, 128]⟩ ⟨3, ![256, 11, 2]⟩ ⟨3, ![256, 11, 128]⟩ [2] [0, 1] [] [0, 1] [] 2 ![1, 1, 128])
    (x : SArr.Idx → α) (tbl : IVec ⟨3, ![256, 11, 2]⟩ 32) (w : BitVec 32)
    (b : Fin 256) (k : Fin 11) (j : Fin 128)
    (h0 : tbl (ix3 b k (0 : Fin 2)) = w) (h1 : tbl (ix3 b k (1 : Fin 2)) = BitVec.ofNat 32 b.val) :
    Host.gather (rowsDims 2048 256 11 128 wf) x tbl (ix3 b k j) = x (ix3 (rowOf w) b j) := by
  rw [gather_rows_apply (by decide) (by decide) wf x tbl b k j]
  refine congrArg x (funext fun a => ?_)
  match a with
  | ⟨0, _⟩ =>
    refine Fin.ext ?_
    show min (tbl (ix3 b k (0 : Fin 2))).toInt.toNat (2048 - 1) = min w.toInt.toNat 2047
    rw [h0]
  | ⟨1, _⟩ =>
    refine Fin.ext ?_
    show min (tbl (ix3 b k (1 : Fin 2))).toInt.toNat (256 - 1) = b.val
    rw [h1, toInt_ofNat_of_lt (by have := b.isLt; omega)]
    have := b.isLt
    omega
  | ⟨2, _⟩ => rfl

/-- The same with the table given as its two columns laid side by side: the first column at (b, k) the
    index table's word, the second the batch-column number b. -/
theorem gather_table {α : Type}
    (wf : GatherDims.WF ⟨3, ![2048, 256, 128]⟩ ⟨3, ![256, 11, 2]⟩ ⟨3, ![256, 11, 128]⟩ [2] [0, 1] [] [0, 1] [] 2 ![1, 1, 128])
    (hc : Shape.Concatenates [(⟨3, ![256, 11, 1]⟩ : Shape), (⟨3, ![256, 11, 1]⟩ : Shape)] ⟨3, ![256, 11, 2]⟩ 2)
    (x : SArr.Idx → α) (p q : IVec ⟨3, ![256, 11, 1]⟩ 32) (t : IVec STab 32)
    (b : Fin 256) (k : Fin 11) (j : Fin 128)
    (hp : p (ix3 b k (0 : Fin 1)) = t (ix2 b k)) (hq : q (ix3 b k (0 : Fin 1)) = BitVec.ofNat 32 b.val) :
    Host.gather (rowsDims 2048 256 11 128 wf) x
        (concatenate ⟨3, ![256, 11, 2]⟩ 2 [⟨⟨3, ![256, 11, 1]⟩, p⟩, ⟨⟨3, ![256, 11, 1]⟩, q⟩] hc) (ix3 b k j)
      = x (ix3 (rowOf (t (ix2 b k))) b j) := by
  refine gather_word wf x _ (t (ix2 b k)) b k j ?_ ?_
  · rw [concatenate_pair_apply_left (2 : Fin 3) p q hc (ix3 b k (0 : Fin 2)) rfl (ix3 b k (0 : Fin 1))
      (fun a => match a with | ⟨0, _⟩ => rfl | ⟨1, _⟩ => rfl | ⟨2, _⟩ => rfl)]
    exact hp
  · rw [concatenate_pair_apply_right (2 : Fin 3) p q hc (ix3 b k (1 : Fin 2)) rfl rfl (ix3 b k (0 : Fin 1))
      (fun a => match a with
        | ⟨0, _⟩ => fun _ => rfl
        | ⟨1, _⟩ => fun _ => rfl
        | ⟨2, _⟩ => fun h => absurd rfl h) rfl]
    exact hq

/-- Flat positions of a [2816] vector are the pairs (b, k). -/
def flatEquiv : Fin 256 × Fin 11 ≃ STgt.Idx where
  toFun p := ix1 (flat p.1 p.2)
  invFun j := (⟨(j 0).val / 11, by have h : (j 0).val < 2816 := (j 0).isLt; omega⟩,
    ⟨(j 0).val % 11, Nat.mod_lt _ (by decide)⟩)
  left_inv p := by
    obtain ⟨b, k⟩ := p
    have hb := b.isLt
    have hk := k.isLt
    refine Prod.ext (Fin.ext ?_) (Fin.ext ?_)
    · show (b.val * 11 + k.val) / 11 = b.val
      omega
    · show (b.val * 11 + k.val) % 11 = k.val
      omega
  right_inv j := by
    funext d
    match d with
    | ⟨0, _⟩ =>
      refine Fin.ext ?_
      show (j 0).val / 11 * 11 + (j 0).val % 11 = (j 0).val
      omega

/-- A sum over a [2816] vector's positions is the double sum over (b, k) at position 11·b + k. -/
theorem sum_flat {M : Type*} [AddCommMonoid M] (f : STgt.Idx → M) :
    ∑ j, f j = ∑ b : Fin 256, ∑ k : Fin 11, f (ix1 (flat b k)) := by
  rw [← Equiv.sum_comp flatEquiv f, Fintype.sum_prod_type]
  rfl

end Cert.RefValueIdx

end
-- ==== Proof.RefValueRows.lean ====
/-
  The reference's four row gathers, each read at a flat position.

  For an index table whose word at (b, k) is not negative, the start-index table's pair at (b, k) is
  (the word, b): the select that would shift a negative index by the extent leaves both components as they are.
  The gather then reads the row the word names, in batch column b, and the reshape to [2816, 128] puts
  (b, k) at row 11·b + k. The four gathers are one function of (array, index table) applied to four pairs
  of arguments, so the read is proved once.
-/
import proofs.«429751_j85177791414540_3_alg».proof.Proof.Gen.ReferenceIdeal.Run
import proofs.«429751_j85177791414540_3_alg».proof.Proof.Gen.ReferenceIdeal.Read
import proofs.«429751_j85177791414540_3_alg».proof.Proof.RefValueIdx

noncomputable section

namespace Cert.RefValueRows

open Idealize.ShloMosaic Idealize.ShloMosaic.ValueIdx Cert.Spec Cert.ReferenceIdeal Cert.ReferenceIdeal.Gen
  Cert.ReferenceIdeal.Read Cert.RefValueIdx

/-- The first start-index column at (b, k) is the index word, when the word is not negative. -/
theorem col0_at (t : (⟨S256x11, .i32⟩ : BufTy).Contents (Elt Ideal)) (b : Fin 256) (k : Fin 11)
    (h : 0 ≤ (t (ix2 b k)).toInt) :
    val_main_v13 (F := Ideal) t (ix3 b k (0 : Fin 1)) = t (ix2 b k) := by
  have e : idx_main_v13 (ix3 b k (0 : Fin 1)) = ix2 b k :=
    funext fun a => match a with | ⟨0, _⟩ => rfl | ⟨1, _⟩ => rfl
  rw [val_main_v13_apply, e, val_main_v6_apply, val_main_v3_apply, val_main_v2_apply, val_main_c_apply,
    val_main_v5_apply]
  exact select_wrap_of_nonneg _ _ h

/-- The second start-index column at (b, k) is the batch-column number b. -/
theorem col1_at (b : Fin 256) (k : Fin 11) :
    val_main_v14 (F := Ideal) (ix3 b k (0 : Fin 1)) = BitVec.ofNat 32 b.val := by
  have e14 : idx_main_v14 (ix3 b k (0 : Fin 1)) = ix2 b k :=
    funext fun a => match a with | ⟨0, _⟩ => rfl | ⟨1, _⟩ => rfl
  have e12 : idx_main_v12 (ix2 b k) = ix2 b (0 : Fin 1) :=
    funext fun a => match a with | ⟨0, _⟩ => rfl | ⟨1, _⟩ => rfl
  have e1 : idx_main_v1 (ix2 b (0 : Fin 1)) = ix1 b :=
    funext fun a => match a with | ⟨0, _⟩ => rfl
  rw [val_main_v14_apply, e14, val_main_v12_apply, e12, val_main_v11_apply, val_main_v8_apply, val_main_v7_apply,
    val_main_c_1_apply, val_main_v10_apply, val_main_v1_apply, e1, val_main_v0_apply]
  exact select_wrap_col b _

/-- Row 11·b + k of the reshaped gather, at d: the array at (the row the word names, b, d). -/
theorem rows_at (x : (⟨S2048x256x128, .f32⟩ : BufTy).Contents (Elt Ideal))
    (t : (⟨S256x11, .i32⟩ : BufTy).Contents (Elt Ideal)) (b : Fin 256) (k : Fin 11) (d : Fin 128)
    (h : 0 ≤ (t (ix2 b k)).toInt) :
    val_main_v17 (F := Ideal) x t (ix2 (flat b k) d) = x (ix3 (rowOf (t (ix2 b k))) b d) := by
  have e : idx_main_v17 (ix2 (flat b k) d) = ix3 b k d := by
    have hb := b.isLt
    have hk := k.isLt
    have hd := d.isLt
    funext a
    match a with
    | ⟨0, _⟩ => exact Fin.ext (by show ((b.val * 11 + k.val) * 128 + d.val) / 1408 = b.val; omega)
    | ⟨1, _⟩ => exact Fin.ext (by show ((b.val * 11 + k.val) * 128 + d.val) / 128 % 11 = k.val; omega)
    | ⟨2, _⟩ => exact Fin.ext (by show ((b.val * 11 + k.val) * 128 + d.val) % 128 = d.val; omega)
  rw [val_main_v17_apply, e]
  unfold val_main_v16 val_main_v15
  exact gather_table _ _ x _ _ t b k d (col0_at t b k h) (col1_at b k)

/-- The second gather is the first one's function, of the far array and the far anchor indices. -/
theorem rows35_at (x : (⟨S2048x256x128, .f32⟩ : BufTy).Contents (Elt Ideal))
    (t : (⟨S256x11, .i32⟩ : BufTy).Contents (Elt Ideal)) (b : Fin 256) (k : Fin 11) (d : Fin 128)
    (h : 0 ≤ (t (ix2 b k)).toInt) :
    val_main_v35 (F := Ideal) x t (ix2 (flat b k) d) = x (ix3 (rowOf (t (ix2 b k))) b d) :=
  rows_at x t b k d h

/-- The third, of the near array and the near indices. -/
theorem rows53_at (x : (⟨S2048x256x128, .f32⟩ : BufTy).Contents (Elt Ideal))
    (t : (⟨S256x11, .i32⟩ : BufTy).Contents (Elt Ideal)) (b : Fin 256) (k : Fin 11) (d : Fin 128)
    (h : 0 ≤ (t (ix2 b k)).toInt) :
    val_main_v53 (F := Ideal) x t (ix2 (flat b k) d) = x (ix3 (rowOf (t (ix2 b k))) b d) :=
  rows_at x t b k d h

/-- The fourth, of the far array and the far indices. -/
theorem rows71_at (x : (⟨S2048x256x128, .f32⟩ : BufTy).Contents (Elt Ideal))
    (t : (⟨S256x11, .i32⟩ : BufTy).Contents (Elt Ideal)) (b : Fin 256) (k : Fin 11) (d : Fin 128)
    (h : 0 ≤ (t (ix2 b k)).toInt) :
    val_main_v71 (F := Ideal) x t (ix2 (flat b k) d) = x (ix3 (rowOf (t (ix2 b k))) b d) :=
  rows_at x t b k d h

end Cert.RefValueRows

end
-- ==== Proof.RefValue.lean ====
/-
  The reference's result at the extended reals as one function of its arguments.

  Each of the four gathers reads, for batch column `b` and slot `k`, the row of its array that the index table
  names (a negative word would be shifted by 2048 first and the result clamped; for a word in `[0, 2048)` neither
  does anything), in column `b`; the rest is the distance, the prediction, the loss and the two sums.
-/
import proofs.«429751_j85177791414540_3_alg».proof.Proof.Gen.ReferenceIdeal.Run
import proofs.«429751_j85177791414540_3_alg».proof.Proof.Gen.ReferenceIdeal.Read
import proofs.«429751_j85177791414540_3_alg».proof.Proof.Spec
import proofs.«429751_j85177791414540_3_alg».proof.Proof.LibGatherRows
import proofs.«429751_j85177791414540_3_alg».proof.Proof.RefValueIdx
import proofs.«429751_j85177791414540_3_alg».proof.Proof.RefValueRows

noncomputable section

namespace Cert.RefValue

open Idealize.ShloMosaic Idealize.ShloMosaic.ValueIdx Cert.Spec Cert.ReferenceIdeal Cert.ReferenceIdeal.Gen
open Cert.ReferenceIdeal.Read Cert.RefValueIdx Cert.RefValueRows

/-- The near triple's row sum at flat position 11·b + k is the squared distance of the two rows the words name. -/
theorem near_sq_at (x0 : (⟨S2048x256x128, .f32⟩ : BufTy).Contents (Elt Ideal))
    (x2 x4 : (⟨S256x11, .i32⟩ : BufTy).Contents (Elt Ideal)) (b : Fin 256) (k : Fin 11)
    (h2 : 0 ≤ (x2 (ix2 b k)).toInt) (h4 : 0 ≤ (x4 (ix2 b k)).toInt) :
    val_main_v76 (F := Ideal) x0 x2 x4 (ix1 (flat b k))
      = sqDist x0 (rowOf (x2 (ix2 b k))) (rowOf (x4 (ix2 b k))) b := by
  have e : ∀ d : Fin 128, idx_main_v76 (ix1 (flat b k)) d = ix2 (flat b k) d :=
    fun d => funext fun a => match a with | ⟨0, _⟩ => rfl | ⟨1, _⟩ => rfl
  unfold sqDist eps
  rw [val_main_v76_apply, val_main_cst_15_apply]
  simp only [e, val_main_v75_apply, val_main_v74_apply, val_main_v72_apply, val_main_v73_apply, val_main_cst_apply,
    fun d => rows_at x0 x2 b k d h2, fun d => rows53_at x0 x4 b k d h4,
    Ideal.ofBits_def, Ideal.ofBits_zero_f32, zero_add, Ideal.addf_def, Ideal.subf_def, Ideal.mulf_def]

/-- The far triple's, likewise. -/
theorem far_sq_at (x1 : (⟨S2048x256x128, .f32⟩ : BufTy).Contents (Elt Ideal))
    (x3 x5 : (⟨S256x11, .i32⟩ : BufTy).Contents (Elt Ideal)) (b : Fin 256) (k : Fin 11)
    (h3 : 0 ≤ (x3 (ix2 b k)).toInt) (h5 : 0 ≤ (x5 (ix2 b k)).toInt) :
    val_main_v84 (F := Ideal) x1 x3 x5 (ix1 (flat b k))
      = sqDist x1 (rowOf (x3 (ix2 b k))) (rowOf (x5 (ix2 b k))) b := by
  have e : ∀ d : Fin 128, idx_main_v84 (ix1 (flat b k)) d = ix2 (flat b k) d :=
    fun d => funext fun a => match a with | ⟨0, _⟩ => rfl | ⟨1, _⟩ => rfl
  unfold sqDist eps
  rw [val_main_v84_apply, val_main_cst_17_apply]
  simp only [e, val_main_v83_apply, val_main_v82_apply, val_main_v80_apply, val_main_v81_apply, val_main_cst_16_apply,
    fun d => rows35_at x1 x3 b k d h3, fun d => rows71_at x1 x5 b k d h5,
    Ideal.ofBits_def, Ideal.ofBits_zero_f32, zero_add, Ideal.addf_def, Ideal.subf_def, Ideal.mulf_def]

/-- The near triple's squared loss at flat position 11·b + k. -/
theorem near_loss_at (x0 : (⟨S2048x256x128, .f32⟩ : BufTy).Contents (Elt Ideal))
    (x2 x4 : (⟨S256x11, .i32⟩ : BufTy).Contents (Elt Ideal)) (x6 : (⟨S2816, .f32⟩ : BufTy).Contents (Elt Ideal))
    (b : Fin 256) (k : Fin 11) (h2 : 0 ≤ (x2 (ix2 b k)).toInt) (h4 : 0 ≤ (x4 (ix2 b k)).toInt) :
    val_main_v90 (F := Ideal) x0 x2 x4 x6 (ix1 (flat b k)) = lossSq x0 x2 x4 x6 b k := by
  unfold lossSq loss
  rw [val_main_v90_apply, val_main_v88_apply, val_main_v79_apply, val_main_v78_apply, val_main_v77_apply,
    near_sq_at x0 x2 x4 b k h2 h4]
  simp only [Ideal.hostUnary_exp_def, Ideal.hostNegf_def, Ideal.negf_def, Ideal.hostUnary_sqrt_def, Ideal.subf_def,
    Ideal.mulf_def]

/-- The far triple's. -/
theorem far_loss_at (x1 : (⟨S2048x256x128, .f32⟩ : BufTy).Contents (Elt Ideal))
    (x3 x5 : (⟨S256x11, .i32⟩ : BufTy).Contents (Elt Ideal)) (x7 : (⟨S2816, .f32⟩ : BufTy).Contents (Elt Ideal))
    (b : Fin 256) (k : Fin 11) (h3 : 0 ≤ (x3 (ix2 b k)).toInt) (h5 : 0 ≤ (x5 (ix2 b k)).toInt) :
    val_main_v92 (F := Ideal) x1 x3 x5 x7 (ix1 (flat b k)) = lossSq x1 x3 x5 x7 b k := by
  unfold lossSq loss
  rw [val_main_v92_apply, val_main_v89_apply, val_main_v87_apply, val_main_v86_apply, val_main_v85_apply,
    far_sq_at x1 x3 x5 b k h3 h5]
  simp only [Ideal.hostUnary_exp_def, Ideal.hostNegf_def, Ideal.negf_def, Ideal.hostUnary_sqrt_def, Ideal.subf_def,
    Ideal.mulf_def]

/-- The reference's composed term is the specification, when every index word names a row. -/
theorem result_eq (x0 x1 : (⟨S2048x256x128, .f32⟩ : BufTy).Contents (Elt Ideal))
    (x2 x3 x4 x5 : (⟨S256x11, .i32⟩ : BufTy).Contents (Elt Ideal))
    (x6 x7 : (⟨S2816, .f32⟩ : BufTy).Contents (Elt Ideal))
    (h2 : InRows x2) (h3 : InRows x3) (h4 : InRows x4) (h5 : InRows x5) :
    Cert.ReferenceIdeal.Read.val_main_v94 (F := Ideal) x0 x1 x2 x3 x4 x5 x6 x7 = G x0 x1 x2 x3 x4 x5 x6 x7 := by
  funext i
  unfold G
  rw [val_main_v94_apply, val_main_v91_apply, val_main_v93_apply, val_main_cst_18_apply, val_main_cst_19_apply,
    sum_flat (val_main_v90 (F := Ideal) x0 x2 x4 x6), sum_flat (val_main_v92 (F := Ideal) x1 x3 x5 x7)]
  simp only [fun b k => near_loss_at x0 x2 x4 x6 b k (h2 b k).1 (h4 b k).1,
    fun b k => far_loss_at x1 x3 x5 x7 b k (h3 b k).1 (h5 b k).1,
    Ideal.ofBits_def, Ideal.ofBits_zero_f32, zero_add, Ideal.addf_def]

end Cert.RefValue

end
-- ==== Proof.KernelStep.lean ====
/-
  The kernel body as a recurrence.

  At one grid point the body walks the eight batch columns of its blocks. For column `j` it reads row `j` of
  each of the four index blocks (eleven words each), column `j` of the two array blocks (a `[2048, 128]` slab
  each) and row `j` of the two target blocks, selects from each slab the eleven rows the words name (a one-hot
  `[11, 2048]` matrix times the slab), and adds the eleven squared losses of the near triple and of the far
  triple to a running `[11, 1]` vector that starts at zero. After the eighth column the vector's eleven entries
  are summed (a `[1, 11]` row of ones times the vector) and added to the `[1, 1]` accumulator.
  The body is written out column by column, with no loop, and its values are named in pieces that do not fall at
  the same places in every column; `step` is column 0's arithmetic, and each later column's pieces compose to the
  same function (`column1` … `column6`, `column7_close`: the two sides unfold to the same operations in the same
  order).
-/
import proofs.«429751_j85177791414540_3_alg».proof.Proof.Gen.KernelIdeal.Skeleton

set_option maxRecDepth 65536

noncomputable section

namespace Cert.KernelValue

open Idealize.ShloMosaic Cert.KernelIdeal Cert.KernelIdeal.Gen
open Cert.KernelIdeal.Facts₀ Cert.KernelIdeal.Facts

variable {F : FTy → Type} [FloatOps F]

/-- The lane numbers `0 … 2047` along axis 1 of an `[11, 2048]` vector: what each index word is compared with. -/
abbrev lanes : IVec S11x2048 32 := iota .tc S11x2048 32 [1] Facts₀.iota_S11x2048_d1_w32

/-- ONE COLUMN: the running vector `tv` plus the squared losses of the near triple (`na`, `ne` over `near`,
    target `nt`) and of the far triple (`fa`, `fe` over `far`, target `ft`). -/
def step (tv : FVec F S11x1 .f32) (na ne fa fe : Vec F S1x11 .i32) (near far : Vec F S2048x1x128 .f32)
    (nt ft : Vec F S1x11x1 .f32) : FVec F S11x1 .f32 :=
  k0_pay9 tv (k0_pay3 near) (k0_pay4 far) (k0_pay5 na) (k0_pay6 ne) (k0_pay7 fa) (k0_pay8 fe) nt ft

/-- THE CLOSE: the accumulator `prev` plus the sum of the running vector's eleven entries. -/
def close (tv : FVec F S11x1 .f32) (prev : Vec F S1x1 .f32) : FVec F S1x1 .f32 :=
  shapeCast S1x1 (addf prev (matmul dot_S1x11_S11x1_S1x1_1_0_0_1_n_n none
    (broadcast S1x11 (Scalar.ofBits .f32 0x3F800000#32)) tv (constant S1x1 .f32 0x00000000#32))) Facts₀.shapeCasts_S1x1_S1x1

theorem column1 (tv : FVec F S11x1 .f32) (na ne fa fe : Vec F S1x11 .i32) (near far : Vec F S2048x1x128 .f32)
    (nt ft : Vec F S1x11x1 .f32) :
    k0_pay16 tv (k0_pay13 lanes fa far) (k0_pay14 lanes fe far) (k0_pay15 lanes (k0_pay10 na) (k0_pay11 ne) near) nt ft
      = step tv na ne fa fe near far nt ft := rfl

theorem column2 (tv : FVec F S11x1 .f32) (na ne fa fe : Vec F S1x11 .i32) (near far : Vec F S2048x1x128 .f32)
    (nt ft : Vec F S1x11x1 .f32) :
    k0_pay24 tv (k0_pay22 lanes (k0_pay17 na) (k0_pay18 ne) (k0_pay21 near)) (k0_pay23 lanes (k0_pay19 fa) (k0_pay20 fe) far) nt ft
      = step tv na ne fa fe near far nt ft := rfl

theorem column3 (tv : FVec F S11x1 .f32) (na ne fa fe : Vec F S1x11 .i32) (near far : Vec F S2048x1x128 .f32)
    (nt ft : Vec F S1x11x1 .f32) :
    k0_pay31 lanes tv (k0_pay25 fe) (k0_pay26 near) (k0_pay27 far) (k0_pay28 lanes na) (k0_pay29 lanes ne) (k0_pay30 lanes fa) nt ft
      = step tv na ne fa fe near far nt ft := rfl

theorem column4 (tv : FVec F S11x1 .f32) (na ne fa fe : Vec F S1x11 .i32) (near far : Vec F S2048x1x128 .f32)
    (nt ft : Vec F S1x11x1 .f32) :
    k0_pay36 tv (k0_pay33 lanes fa far) (k0_pay34 lanes fe far) (k0_pay35 lanes na ne near) (Scalar.ofBits .f32 0x358637BD#32) nt ft
      = step tv na ne fa fe near far nt ft := rfl

theorem column5 (tv : FVec F S11x1 .f32) (na ne fa fe : Vec F S1x11 .i32) (near far : Vec F S2048x1x128 .f32)
    (nt ft : Vec F S1x11x1 .f32) :
    k0_pay44 tv (k0_pay41 lanes (k0_pay37 na) (k0_pay38 ne) near) (k0_pay42 lanes (k0_pay39 fa) (k0_pay40 fe) far) k0_pay43 nt ft
      = step tv na ne fa fe near far nt ft := rfl

theorem column6 (tv : FVec F S11x1 .f32) (na ne fa fe : Vec F S1x11 .i32) (near far : Vec F S2048x1x128 .f32)
    (nt ft : Vec F S1x11x1 .f32) :
    k0_pay53 tv (k0_pay51 (k0_pay47 near) (k0_pay49 lanes na) (k0_pay50 lanes ne) nt)
        (k0_pay52 lanes (k0_pay45 fa) (k0_pay46 fe) (k0_pay48 far) ft)
      = step tv na ne fa fe near far nt ft := rfl

theorem column7_close (tv : FVec F S11x1 .f32) (na ne fa fe : Vec F S1x11 .i32) (near far : Vec F S2048x1x128 .f32)
    (nt ft : Vec F S1x11x1 .f32) (prev : Vec F S1x1 .f32) :
    k0_pay60 tv (k0_pay55 far) (k0_pay56 lanes fa) (k0_pay57 lanes fe) (k0_pay58 lanes na near) (k0_pay59 lanes ne near) nt ft prev
      = close (step tv na ne fa fe near far nt ft) prev := rfl

end Cert.KernelValue

end
-- ==== Proof.KernelPoint.lean ====
/-
  What one grid point leaves in the accumulator.

  `col` is one batch column of the body (`step` over that column's loads: row `j` of the four index blocks, column
  `j` of the two array blocks, row `j` of the two target blocks); `point` is the eight columns in order from a zero
  vector, closed into the accumulator's previous contents. The body's run, in each of its three control cases
  (first grid point: the accumulator is zeroed first; a middle point; the last point: the accumulator is also copied
  to the output block), leaves exactly `point` of the point's blocks in the accumulator.
-/
import proofs.«429751_j85177791414540_3_alg».proof.Proof.Gen.KernelIdeal.Frame
import proofs.«429751_j85177791414540_3_alg».proof.Proof.KernelStep
import Idealize.ShloMosaic.Lib.Pipeline.Value

set_option maxRecDepth 65536

noncomputable section

namespace Cert.KernelValue

open Idealize.ShloMosaic Idealize.ShloMosaic.TcCoe Idealize.ShloMosaic.Tactic Idealize.SL.Sem
open Cert.KernelIdeal Cert.KernelIdeal.Gen

variable {F : FTy → Type} [FloatOps F]

/-- ONE COLUMN of the body at column number `j`: `step` over the column's loads from the point's eight blocks
    (`x0 … x3` the index blocks in the order near-anchor, near, far-anchor, far; `x4`, `x5` the near and far
    targets; `x6`, `x7` the near and far arrays). -/
def col (tv : FVec F S11x1 .f32) (x0 x1 x2 x3 : Vec F S8x11 .i32) (x4 x5 : Vec F S8x11x1 .f32) (x6 x7 : Vec F S2048x8x128 .f32) (j : Nat)
    (h1 : ∀ a, (![j, 0] : Fin 2 → Nat) a + S1x11.size a ≤ S8x11.size a)
    (h2 : ∀ a, (![0, j, 0] : Fin 3 → Nat) a + S2048x1x128.size a ≤ S2048x8x128.size a)
    (h3 : ∀ a, (![j, 0, 0] : Fin 3 → Nat) a + S1x11x1.size a ≤ S8x11x1.size a) : FVec F S11x1 .f32 :=
  step tv (View.ld x0 (Rect.unit ![j, 0] S1x11.size h1)) (View.ld x1 (Rect.unit ![j, 0] S1x11.size h1))
    (View.ld x2 (Rect.unit ![j, 0] S1x11.size h1)) (View.ld x3 (Rect.unit ![j, 0] S1x11.size h1))
    (View.ld x6 (Rect.unit ![0, j, 0] S2048x1x128.size h2)) (View.ld x7 (Rect.unit ![0, j, 0] S2048x1x128.size h2))
    (View.ld x4 (Rect.unit ![j, 0, 0] S1x11x1.size h3)) (View.ld x5 (Rect.unit ![j, 0, 0] S1x11x1.size h3))

/-- The running vector after the eight columns, from zero. -/
def cols (x0 x1 x2 x3 : Vec F S8x11 .i32) (x4 x5 : Vec F S8x11x1 .f32) (x6 x7 : Vec F S2048x8x128 .f32) : FVec F S11x1 .f32 :=
  col (col (col (col (col (col (col (col (k0_pay2 (F := F))
    x0 x1 x2 x3 x4 x5 x6 x7 0 Facts₀.inb_S8x11_S1x11_0_0 Facts₀.inb_S2048x8x128_S2048x1x128_0_0_0 Facts₀.inb_S8x11x1_S1x11x1_0_0_0)
    x0 x1 x2 x3 x4 x5 x6 x7 1 Facts₀.inb_S8x11_S1x11_1_0 Facts₀.inb_S2048x8x128_S2048x1x128_0_1_0 Facts₀.inb_S8x11x1_S1x11x1_1_0_0)
    x0 x1 x2 x3 x4 x5 x6 x7 2 Facts₀.inb_S8x11_S1x11_2_0 Facts₀.inb_S2048x8x128_S2048x1x128_0_2_0 Facts₀.inb_S8x11x1_S1x11x1_2_0_0)
    x0 x1 x2 x3 x4 x5 x6 x7 3 Facts₀.inb_S8x11_S1x11_3_0 Facts₀.inb_S2048x8x128_S2048x1x128_0_3_0 Facts₀.inb_S8x11x1_S1x11x1_3_0_0)
    x0 x1 x2 x3 x4 x5 x6 x7 4 Facts₀.inb_S8x11_S1x11_4_0 Facts₀.inb_S2048x8x128_S2048x1x128_0_4_0 Facts₀.inb_S8x11x1_S1x11x1_4_0_0)
    x0 x1 x2 x3 x4 x5 x6 x7 5 Facts₀.inb_S8x11_S1x11_5_0 Facts₀.inb_S2048x8x128_S2048x1x128_0_5_0 Facts₀.inb_S8x11x1_S1x11x1_5_0_0)
    x0 x1 x2 x3 x4 x5 x6 x7 6 Facts₀.inb_S8x11_S1x11_6_0 Facts₀.inb_S2048x8x128_S2048x1x128_0_6_0 Facts₀.inb_S8x11x1_S1x11x1_6_0_0)
    x0 x1 x2 x3 x4 x5 x6 x7 7 Facts₀.inb_S8x11_S1x11_7_0 Facts₀.inb_S2048x8x128_S2048x1x128_0_7_0 Facts₀.inb_S8x11x1_S1x11x1_7_0_0

/-- ONE GRID POINT: the eight columns, closed into the accumulator's previous contents `prev`. -/
def point (x0 x1 x2 x3 : Vec F S8x11 .i32) (x4 x5 : Vec F S8x11x1 .f32) (x6 x7 : Vec F S2048x8x128 .f32) (prev : Vec F S1x1 .f32) : FVec F S1x1 .f32 :=
  close (cols x0 x1 x2 x3 x4 x5 x6 x7) prev

theorem zero2 : (![0, 0] : Fin 2 → Nat) = fun _ => 0 := by funext a; fin_cases a <;> rfl

/-- A MIDDLE POINT leaves `point` of its blocks over what the point before left. -/
theorem scratch_B (c : Dev nD) (i : grid0.Coords) (arg1 : Memref sig .tc .vmem S8x11 .i32) (harg1 : arg1.IsWhole) (arg2 : Memref sig .tc .vmem S8x11 .i32) (harg2 : arg2.IsWhole) (arg3 : Memref sig .tc .vmem S8x11 .i32) (harg3 : arg3.IsWhole) (arg4 : Memref sig .tc .vmem S8x11 .i32) (harg4 : arg4.IsWhole) (arg5 : Memref sig .tc .vmem S8x11x1 .f32) (harg5 : arg5.IsWhole) (arg6 : Memref sig .tc .vmem S8x11x1 .f32) (harg6 : arg6.IsWhole) (arg7 : Memref sig .tc .vmem S2048x8x128 .f32) (harg7 : arg7.IsWhole) (arg8 : Memref sig .tc .vmem S2048x8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 x2 x3 : Vec F S8x11 .i32) (x4 x5 : Vec F S8x11x1 .f32) (x6 x7 : Vec F S2048x8x128 .f32) (xs0 : Vec F S1x1 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 x7 xs0 = point x0 x1 x2 x3 x4 x5 x6 x7 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_B
  dsimp only
  sl_unfold_run_names
  rw [View.canon_unit_zero zero2]
  simp only [View.readAt_eq_ld, harg1.read_unread, harg2.read_unread, harg3.read_unread, harg4.read_unread, harg5.read_unread, harg6.read_unread, harg7.read_unread, harg8.read_unread, harg10.read_unread, View.ld_unit_zero (S := S1x1) zero2]
  rfl

/-- THE FIRST POINT zeroes the accumulator and then leaves `point` of its blocks over that zero. -/
theorem scratch_A (c : Dev nD) (i : grid0.Coords) (arg1 : Memref sig .tc .vmem S8x11 .i32) (harg1 : arg1.IsWhole) (arg2 : Memref sig .tc .vmem S8x11 .i32) (harg2 : arg2.IsWhole) (arg3 : Memref sig .tc .vmem S8x11 .i32) (harg3 : arg3.IsWhole) (arg4 : Memref sig .tc .vmem S8x11 .i32) (harg4 : arg4.IsWhole) (arg5 : Memref sig .tc .vmem S8x11x1 .f32) (harg5 : arg5.IsWhole) (arg6 : Memref sig .tc .vmem S8x11x1 .f32) (harg6 : arg6.IsWhole) (arg7 : Memref sig .tc .vmem S2048x8x128 .f32) (harg7 : arg7.IsWhole) (arg8 : Memref sig .tc .vmem S2048x8x128 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 x2 x3 : Vec F S8x11 .i32) (x4 x5 : Vec F S8x11x1 .f32) (x6 x7 : Vec F S2048x8x128 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 x7 = point x0 x1 x2 x3 x4 x5 x6 x7 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6 x7)]
  unfold kernelRun0_A
  dsimp only
  sl_unfold_run_names
  rw [View.canon_cons_unit_zero zero2]
  simp only [View.readAt_eq_ld, harg1.read_unread, harg2.read_unread, harg3.read_unread, harg4.read_unread, harg5.read_unread, harg6.read_unread, harg7.read_unread, harg8.read_unread, harg10.read_unread, View.readCov_unit_zero (S := S1x1) _ zero2]
  rfl

/-- THE LAST POINT leaves `point` of its blocks over what the point before left. -/
theorem scratch_C (c : Dev nD) (i : grid0.Coords) (arg1 : Memref sig .tc .vmem S8x11 .i32) (harg1 : arg1.IsWhole) (arg2 : Memref sig .tc .vmem S8x11 .i32) (harg2 : arg2.IsWhole) (arg3 : Memref sig .tc .vmem S8x11 .i32) (harg3 : arg3.IsWhole) (arg4 : Memref sig .tc .vmem S8x11 .i32) (harg4 : arg4.IsWhole) (arg5 : Memref sig .tc .vmem S8x11x1 .f32) (harg5 : arg5.IsWhole) (arg6 : Memref sig .tc .vmem S8x11x1 .f32) (harg6 : arg6.IsWhole) (arg7 : Memref sig .tc .vmem S2048x8x128 .f32) (harg7 : arg7.IsWhole) (arg8 : Memref sig .tc .vmem S2048x8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 x2 x3 : Vec F S8x11 .i32) (x4 x5 : Vec F S8x11x1 .f32) (x6 x7 : Vec F S2048x8x128 .f32) (xs0 : Vec F S1x1 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 x7 xs0 = point x0 x1 x2 x3 x4 x5 x6 x7 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_run_names
  rw [View.canon_unit_zero zero2]
  simp only [View.readAt_eq_ld, harg1.read_unread, harg2.read_unread, harg3.read_unread, harg4.read_unread, harg5.read_unread, harg6.read_unread, harg7.read_unread, harg8.read_unread, harg10.read_unread, View.ld_unit_zero (S := S1x1) zero2]
  rfl

/-- THE LAST POINT also copies the accumulator, as it has just left it, to the output block. -/
theorem output_C (c : Dev nD) (i : grid0.Coords) (arg1 : Memref sig .tc .vmem S8x11 .i32) (harg1 : arg1.IsWhole) (arg2 : Memref sig .tc .vmem S8x11 .i32) (harg2 : arg2.IsWhole) (arg3 : Memref sig .tc .vmem S8x11 .i32) (harg3 : arg3.IsWhole) (arg4 : Memref sig .tc .vmem S8x11 .i32) (harg4 : arg4.IsWhole) (arg5 : Memref sig .tc .vmem S8x11x1 .f32) (harg5 : arg5.IsWhole) (arg6 : Memref sig .tc .vmem S8x11x1 .f32) (harg6 : arg6.IsWhole) (arg7 : Memref sig .tc .vmem S2048x8x128 .f32) (harg7 : arg7.IsWhole) (arg8 : Memref sig .tc .vmem S2048x8x128 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 x2 x3 : Vec F S8x11 .i32) (x4 x5 : Vec F S8x11x1 .f32) (x6 x7 : Vec F S2048x8x128 .f32) (xs0 : Vec F S1x1 .f32) :
    out0_C_8 c i arg1 harg1 arg2 harg2 arg3 harg3 arg4 harg4 arg5 harg5 arg6 harg6 arg7 harg7 arg8 harg8 arg9 harg9 arg10 harg10 hc0 hc1 x0 x1 x2 x3 x4 x5 x6 x7 xs0 = point x0 x1 x2 x3 x4 x5 x6 x7 xs0 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_run_names
  rw [View.canon_unit_zero zero2]
  simp only [View.readAt_eq_ld, harg1.read_unread, harg2.read_unread, harg3.read_unread, harg4.read_unread, harg5.read_unread, harg6.read_unread, harg7.read_unread, harg8.read_unread, harg10.read_unread, View.ld_unit_zero (S := S1x1) zero2, View.readCov_unit_zero (S := S1x1) _ zero2]
  rfl

end Cert.KernelValue

end
-- ==== Proof.KernelAcc.lean ====
/-
  The accumulator over the grid, and the result array.

  The thirty-two grid points run in order. The first zeroes the accumulator and adds its point's contribution; each
  later one adds its own to what the point before left; the last one also copies the accumulator to the `[1, 1]` output
  block, the only block of the output ever written back, which is the whole result array.
-/
import proofs.«429751_j85177791414540_3_alg».proof.Proof.KernelPoint

set_option maxRecDepth 65536

noncomputable section

namespace Cert.KernelValue

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- `point` of the blocks the eight input windows hold at grid point `t`. -/
abbrev pointAt (c : Dev nD) (t : Fin cfg0.N) (prev : Vec F S1x1 .f32) : FVec F S1x1 .f32 :=
  point (iblk m c 0 t) (iblk m c 1 t) (iblk m c 2 t) (iblk m c 3 t) (iblk m c 4 t) (iblk m c 5 t) (iblk m c 6 t) (iblk m c 7 t) prev

/-- THE ACCUMULATOR after point `n`: from the reset value at the first point, each point's `point` over the one before. -/
def acc (c : Dev nD) : (n : ℕ) → n < cfg0.N → Vec F S1x1 .f32
  | 0, h => pointAt m c ⟨0, h⟩ (k0_pay1 (F := F))
  | n + 1, h => pointAt m c ⟨n + 1, h⟩ (acc c n (Nat.lt_of_succ_lt h))

/-- What the run leaves in the carried accumulator after point `n` is `acc`: by induction on the point, the three
    control cases by the closed forms of their conditions. -/
theorem scratch_eq (c : Dev nD) : ∀ (n : ℕ) (h : n < cfg0.N), (outsAt0 m c n h).2 = acc m c n h
  | 0, h => by
    have hN : cfg0.N = 32 := N_0
    rw [outsAt0_A m c ⟨0, h⟩ rfl (by show ¬ (0 : ℕ) % 32 = 31; decide)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _).trans ?_
      show pointAt m c ⟨n + 1, h⟩ (outsAt0 m c n _).2 = pointAt m c ⟨n + 1, h⟩ (acc m c n _)
      rw [scratch_eq c n]
    · rw [outsAt0_B m c ⟨n + 1, h⟩ h0 h1]
      dsimp only
      refine (scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _).trans ?_
      show pointAt m c ⟨n + 1, h⟩ (outsAt0 m c n _).2 = pointAt m c ⟨n + 1, h⟩ (acc m c n _)
      rw [scratch_eq c n]

/-- The last grid point. -/
abbrev tLast : Fin cfg0.N := ⟨31, by rw [show cfg0.N = 32 from N_0]; decide⟩

/-- At the last point the output block holds the accumulator as that point leaves it. -/
theorem output_eq (c : Dev nD) : (outsAt0 m c 31 tLast.isLt).1 = acc m c 31 tLast.isLt := by
  have h0 : ¬tLast.val % 32 = 0 := by decide
  have h1 : tLast.val % 32 = 31 := by decide
  have e := outsAt0_C m c tLast h0 h1
  rw [show outsAt0 m c 31 tLast.isLt = outsAt0 m c tLast.val tLast.isLt from rfl, e]
  dsimp only
  refine (output_C c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) (ms0_8 tLast) (hs0_8 tLast) scM0_0 (Memref.isWhole_whole _) _ _ (iblk m c 0 tLast) (iblk m c 1 tLast) (iblk m c 2 tLast) (iblk m c 3 tLast) (iblk m c 4 tLast) (iblk m c 5 tLast) (iblk m c 6 tLast) (iblk m c 7 tLast) _).trans ?_
  show pointAt m c tLast (outsAt0 m c 30 _).2 = pointAt m c tLast (acc m c 30 _)
  rw [scratch_eq m c 30]

end Cert.KernelValue

end
-- ==== Proof.KernelRun.lean ====
/-
  The kernel program's run, with its result named.

  Only the last grid point writes the output block back, and that `[1, 1]` block is the whole result array, so after
  the region the array holds the accumulator as the last point leaves it; the one host operation after the region
  reshapes it to the scalar result. The eight arguments end as they began.
-/
import proofs.«429751_j85177791414540_3_alg».proof.Proof.KernelAcc
import Idealize.ShloMosaic.Lib.StableHlo.Run

set_option maxRecDepth 65536

noncomputable section

namespace Cert.KernelValue

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The result array's final contents: the accumulator after the last point. -/
abbrev outArr (c : Dev nD) : Buf (Elt F) ((c : Thread nD τ).loc main_v2) := acc m c 31 tLast.isLt

/-- The one write-back, at the last point, writes it: the `[1, 1]` block at index `(0, 0)` is the whole array. -/
theorem flushed_eq (c : Dev nD) (t : Fin cfg0.N) (hf : (cfg0.win 8).flush t = true) :
    (dats m 0 c).flushed 8 t = ((cfg0.win 8).blk t).view.read (Elt F) (outArr m c) := by
  have hN : cfg0.N = 32 := N_0
  have h31 : t.val = 31 := by have := (flush0_8 t).mp hf; have := t.isLt; omega
  obtain rfl : t = tLast := Fin.ext h31
  show (cfg0.win 8).cut (grid0.coords tLast) ((dats m 0 c).after 8 tLast) = _
  rw [after0_8]
  show (cfg0.win 8).cut (grid0.coords tLast) (outsAt0 m c 31 tLast.isLt).1 = _
  rw [output_eq]
  have hz' : (fun a => win0_8.index tLast a * main_v2.ty.shape.size a) = fun _ => 0 :=
    funext fun a => by fin_cases a <;> decide +kernel
  exact (Memref.read_access_unit_zero (Elt F) main_v2 hz' (fun a => by rw [congrFun hz' a]; simp) (outArr m c)).symm

/-- So the result array ends holding the accumulator after the last point. -/
theorem final_out (c : Dev nD) : (dats m 0 c).arrAt 8 cfg0.N = outArr m c :=
  (dats m 0 c).arrAt_eq_of_cover 8 (outArr m c) (flushed_eq m c) fun i =>
    ⟨tLast, (flush0_8 tLast).mpr (by decide), by
      show i ∈ ((View.whole main_v2).slice (win0_8.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_8.index tLast 0 * win0_8.size 0 ≤ (i 0 : Nat) ∧ (i 0 : Nat) < win0_8.index tLast 0 * win0_8.size 0 + win0_8.xsize (grid0.coords tLast) 0
        rw [show win0_8.index tLast 0 * win0_8.size 0 = 0 from by decide +kernel, show win0_8.xsize (grid0.coords tLast) 0 = 1 from by decide +kernel]
        omega
      | ⟨1, _⟩ =>
        show win0_8.index tLast 1 * win0_8.size 1 ≤ (i 1 : Nat) ∧ (i 1 : Nat) < win0_8.index tLast 1 * win0_8.size 1 + win0_8.xsize (grid0.coords tLast) 1
        rw [show win0_8.index tLast 1 * win0_8.size 1 = 0 from by decide +kernel, show win0_8.xsize (grid0.coords tLast) 1 = 1 from by decide +kernel]
        omega⟩

/-- The scalar result: the `[1, 1]` result array reshaped to rank 0. -/
abbrev result (c : Dev nD) : Buf (Elt F) ((c : Thread nD τ).loc main_v3) :=
  shapeCast S_ (outArr m c) Facts₀.shapeCasts_S1x1_S_

/-- What the host operation after the region leaves in the result buffer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = outArr m c from (Pipeline.withArrays_arr spec0 launch0.win.arr_inj c _ _ 8).trans (final_out m c)]
  rfl

/-- THE RUN: at the compiled mesh, from any memory with zero counters, every weakly fair execution of the kernel
    program terminates with the scalar result buffer at `result` and the eight arguments as they were. -/
theorem run : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v3 (Pipeline.mem_restRefs_of main_v3 (by decide) (by decide))).trans (tail_eq m c),
      ((h c).1 6).trans (((dats m 0 c).arrAt_in 6 rfl _).trans ((A_eq m c 6).trans (V_main_arg0 m c))),
      ((h c).1 7).trans (((dats m 0 c).arrAt_in 7 rfl _).trans ((A_eq m c 7).trans (V_main_arg1 m c))),
      ((h c).1 0).trans (((dats m 0 c).arrAt_in 0 rfl _).trans ((A_eq m c 0).trans (V_main_arg2 m c))),
      ((h c).1 2).trans (((dats m 0 c).arrAt_in 2 rfl _).trans ((A_eq m c 2).trans (V_main_arg3 m c))),
      ((h c).1 1).trans (((dats m 0 c).arrAt_in 1 rfl _).trans ((A_eq m c 1).trans (V_main_arg4 m c))),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelValue

end
-- ==== Proof.KernelStepIdealOneHot.lean ====
/-
  A one-hot row times a column.

  For a 32-bit word `w` whose signed value is in `[0, 2048)`, the row of 2048 entries "lane number = w" (each entry the
  comparison's bit, widened to 32 bits and read as a signed integer) has a single 1, at the lane `w` names, and 0
  elsewhere. On the extended reals `0 · x = 0` and `1 · x = x` for every `x`, so the row times any column `f` is
  `f` at that lane.
-/
import Idealize.ShloMosaic.Lib.ValueIdx
import Idealize.ShloMosaic.PureOps.Ideal
import proofs.«429751_j85177791414540_3_alg».proof.Proof.Spec

noncomputable section

namespace Cert.KernelValue

open Idealize.ShloMosaic Cert.Spec

/-- The entry of lane `s` in the one-hot row of the word `w`. -/
def hot (w : BitVec 32) (s : Fin 2048) : EReal :=
  ((((IntOp.cmpi .eq (BitVec.ofNat 32 s.val) w).setWidth 32).toInt : ℝ) : EReal)

/-- A word in `[0, 2048)` as a signed integer is below 2048 as a natural number, and `rowOf` is that number. -/
theorem rowOf_val (w : BitVec 32) (h0 : 0 ≤ w.toInt) (h1 : w.toInt < 2048) : (rowOf w).val = w.toNat := by
  have hc := BitVec.toInt_eq_toNat_cond w
  have hlt := w.isLt
  show min w.toInt.toNat 2047 = w.toNat
  split at hc <;> omega

/-- The lane number equals the word exactly at the lane `rowOf` names. -/
theorem ofNat_eq_iff (w : BitVec 32) (h0 : 0 ≤ w.toInt) (h1 : w.toInt < 2048) (s : Fin 2048) :
    BitVec.ofNat 32 s.val = w ↔ s = rowOf w := by
  have hr := rowOf_val w h0 h1
  have hs := s.isLt
  constructor
  · intro h
    refine Fin.ext ?_
    rw [hr, ← h, BitVec.toNat_ofNat]
    omega
  · intro h
    apply BitVec.eq_of_toNat_eq
    rw [BitVec.toNat_ofNat, h, hr]
    have := w.isLt
    omega

/-- The entry is 1 where the lane number is the word, 0 elsewhere. -/
theorem hot_eq (w : BitVec 32) (s : Fin 2048) : hot w s = if BitVec.ofNat 32 s.val = w then 1 else 0 := by
  unfold hot IntOp.cmpi
  by_cases h : BitVec.ofNat 32 s.val = w
  · rw [if_pos h, h]
    have : ((BitVec.ofBool (w == w)).setWidth 32).toInt = 1 := by
      rw [beq_self_eq_true]; decide
    rw [this]; simp
  · rw [if_neg h]
    have hb : (BitVec.ofNat 32 s.val == w) = false := by
      rw [beq_eq_false_iff_ne]; exact h
    have : ((BitVec.ofBool (BitVec.ofNat 32 s.val == w)).setWidth 32).toInt = 0 := by
      rw [hb]; decide
    rw [this]; simp

/-- THE ONE-HOT ROW TIMES A COLUMN: the column at the lane the word names. -/
theorem sum_hot (w : BitVec 32) (h0 : 0 ≤ w.toInt) (h1 : w.toInt < 2048) (f : Fin 2048 → EReal) :
    ∑ s : Fin 2048, hot w s * f s = f (rowOf w) := by
  rw [Finset.sum_eq_single (rowOf w)]
  · rw [hot_eq, if_pos ((ofNat_eq_iff w h0 h1 _).mpr rfl), one_mul]
  · intro s _ hs
    rw [hot_eq, if_neg (fun h => hs ((ofNat_eq_iff w h0 h1 s).mp h)), zero_mul]
  · intro h
    exact absurd (Finset.mem_univ _) h

end Cert.KernelValue

end
-- ==== Proof.KernelStepIdealLayout.lean ====
/-
  Four layout operations read at an index given by coordinates.

  A vector turned into a one-column matrix reads, at `(i, u)`, the vector at `i`; a one-column matrix broadcast
  over the columns reads, at `(i, j)`, its column at `i`; an array `[a, 1, b]` viewed as a matrix reads, at `(i, j)`,
  the array at `(i, 0, j)`; and a one-axis lane numbering reads the lane's number.
-/
import Idealize.ShloMosaic.Lib.ValueIdx
import Idealize.ShloMosaic.Lib.ValueLayout
import Idealize.ShloMosaic.Lib.Pipeline.Value

namespace Cert.KernelValue

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A lane numbering along axis 1 of a matrix reads, at `(i, j)`, the word of `j`. -/
theorem iota_axis1_apply {a b : ℕ} (κ : Kind) (w : ℕ) (h : (⟨2, ![a, b]⟩ : Shape).Iotas κ w [1]) (i : Fin a) (j : Fin b) :
    iota κ ⟨2, ![a, b]⟩ w [1] h (ix2 i j) = BitVec.ofNat w j.val :=
  iota_single_apply κ _ w 1 h (ix2 i j)

end Cert.KernelValue
-- ==== Proof.KernelStepIdeal.lean ====
/-
  One column of the kernel body, and the close, read at the extended reals.

  With every index word of the column in `[0, 2048)`, the one-hot `[11, 2048]` matrix built from eleven words has,
  in row `k`, a single 1 at the lane the word names, so its product with a `[2048, 128]` slab is, in row `k`, the
  slab's row of that number (`0 · x = 0` and `1 · x = x` on the extended reals, whatever `x` is). The rest is the
  distance, the prediction and the loss, entry by entry; a change of float format is the identity.
-/
import proofs.«429751_j85177791414540_3_alg».proof.Proof.KernelStep
import proofs.«429751_j85177791414540_3_alg».proof.Proof.Spec
import proofs.«429751_j85177791414540_3_alg».proof.Proof.KernelStepIdealOneHot
import proofs.«429751_j85177791414540_3_alg».proof.Proof.KernelStepIdealLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.ValueIdx Cert.KernelIdeal Cert.KernelIdeal.Gen Cert.Spec

/-- The words of one row of an index block all name rows of the array. -/
def RowIn (t : Vec Ideal S1x11 .i32) : Prop :=
  ∀ k : Fin 11, 0 ≤ (t (ix2 (0 : Fin 1) k)).toInt ∧ (t (ix2 (0 : Fin 1) k)).toInt < 2048

/-- The loss of slot `k` of one column: `exp (−sqrt (∑_d (x[a_k, d] − x[e_k, d] + ε)²)) − target_k`, over the column's
    `[2048, 1, 128]` slab `x`, its two rows of eleven index words and its row of eleven targets. -/
def colLoss (x : Vec Ideal S2048x1x128 .f32) (ta te : Vec Ideal S1x11 .i32) (tg : Vec Ideal S1x11x1 .f32) (k : Fin 11) : EReal :=
  Ideal.exp (-(Ideal.sqrt (∑ d : Fin 128,
      (x (ix3 (rowOf (ta (ix2 (0 : Fin 1) k))) (0 : Fin 1) d) - x (ix3 (rowOf (te (ix2 (0 : Fin 1) k))) (0 : Fin 1) d) + eps)
    * (x (ix3 (rowOf (ta (ix2 (0 : Fin 1) k))) (0 : Fin 1) d) - x (ix3 (rowOf (te (ix2 (0 : Fin 1) k))) (0 : Fin 1) d) + eps))))
    - tg (ix3 (0 : Fin 1) k (0 : Fin 1))

/-! ## A matrix product into the zero accumulator, read at an entry -/

theorem lhs_0 (j : S11x128.Idx) (q : dot_S11x2048_S2048x128_S11x128_1_0_0_1_n_n.contr.Idx) :
    (dot_S11x2048_S2048x128_S11x128_1_0_0_1_n_n.lhsIdx j q (0 : Fin 2)).val = (j 0).val := rfl
theorem lhs_1 (j : S11x128.Idx) (q : dot_S11x2048_S2048x128_S11x128_1_0_0_1_n_n.contr.Idx) :
    (dot_S11x2048_S2048x128_S11x128_1_0_0_1_n_n.lhsIdx j q (1 : Fin 2)).val = (q ⟨0, by decide⟩).val := rfl
theorem rhs_0 (j : S11x128.Idx) (q : dot_S11x2048_S2048x128_S11x128_1_0_0_1_n_n.contr.Idx) :
    (dot_S11x2048_S2048x128_S11x128_1_0_0_1_n_n.rhsIdx j q (0 : Fin 2)).val = (q ⟨0, by decide⟩).val := rfl
theorem rhs_1 (j : S11x128.Idx) (q : dot_S11x2048_S2048x128_S11x128_1_0_0_1_n_n.contr.Idx) :
    (dot_S11x2048_S2048x128_S11x128_1_0_0_1_n_n.rhsIdx j q (1 : Fin 2)).val = (j 1).val := rfl

/-- An `[11, 2048]` matrix times a `[2048, 128]` one, into zero, at `(k, d)`: the sum over the 2048 lanes. -/
theorem matmul_at (A : FVec Ideal S11x2048 .bf16) (B : FVec Ideal S2048x128 .bf16) (k : Fin 11) (d : Fin 128) :
    matmul dot_S11x2048_S2048x128_S11x128_1_0_0_1_n_n none A B (constant (F := Ideal) S11x128 .f32 0x00000000#32) (ix2 k d)
      = ∑ s : Fin 2048, A (ix2 k s) * B (ix2 s d) := by
  refine (Ideal.matmul_constant_zero_apply dot_S11x2048_S2048x128_S11x128_1_0_0_1_n_n none A B (ix2 k d)).trans ?_
  rw [← Equiv.sum_comp (contrEquiv1 dot_S11x2048_S2048x128_S11x128_1_0_0_1_n_n 2048 rfl rfl).symm]
  refine Finset.sum_congr rfl fun s _ => ?_
  refine congrArg₂ (· * ·) (congrArg A (funext fun a => Fin.ext ?_)) (congrArg B (funext fun a => Fin.ext ?_))
  · match a with
    | ⟨0, _⟩ => exact lhs_0 _ _
    | ⟨1, _⟩ => exact (lhs_1 _ _).trans (contrEquiv1_symm_val dot_S11x2048_S2048x128_S11x128_1_0_0_1_n_n 2048 rfl rfl s)
  · match a with
    | ⟨0, _⟩ => exact (rhs_0 _ _).trans (contrEquiv1_symm_val dot_S11x2048_S2048x128_S11x128_1_0_0_1_n_n 2048 rfl rfl s)
    | ⟨1, _⟩ => exact rhs_1 _ _

theorem cl_lhs_0 (j : S1x1.Idx) (q : dot_S1x11_S11x1_S1x1_1_0_0_1_n_n.contr.Idx) :
    (dot_S1x11_S11x1_S1x1_1_0_0_1_n_n.lhsIdx j q (0 : Fin 2)).val = (j 0).val := rfl
theorem cl_lhs_1 (j : S1x1.Idx) (q : dot_S1x11_S11x1_S1x1_1_0_0_1_n_n.contr.Idx) :
    (dot_S1x11_S11x1_S1x1_1_0_0_1_n_n.lhsIdx j q (1 : Fin 2)).val = (q ⟨0, by decide⟩).val := rfl
theorem cl_rhs_0 (j : S1x1.Idx) (q : dot_S1x11_S11x1_S1x1_1_0_0_1_n_n.contr.Idx) :
    (dot_S1x11_S11x1_S1x1_1_0_0_1_n_n.rhsIdx j q (0 : Fin 2)).val = (q ⟨0, by decide⟩).val := rfl
theorem cl_rhs_1 (j : S1x1.Idx) (q : dot_S1x11_S11x1_S1x1_1_0_0_1_n_n.contr.Idx) :
    (dot_S1x11_S11x1_S1x1_1_0_0_1_n_n.rhsIdx j q (1 : Fin 2)).val = (j 1).val := rfl

/-- A `[1, 11]` row times an `[11, 1]` column, into zero, at its one entry: the sum over the eleven slots. -/
theorem matmul_close_at (A : FVec Ideal S1x11 .f32) (B : FVec Ideal S11x1 .f32) :
    matmul dot_S1x11_S11x1_S1x1_1_0_0_1_n_n none A B (constant (F := Ideal) S1x1 .f32 0x00000000#32) (ix2 (0 : Fin 1) (0 : Fin 1))
      = ∑ s : Fin 11, A (ix2 (0 : Fin 1) s) * B (ix2 s (0 : Fin 1)) := by
  refine (Ideal.matmul_constant_zero_apply dot_S1x11_S11x1_S1x1_1_0_0_1_n_n none A B (ix2 (0 : Fin 1) (0 : Fin 1))).trans ?_
  rw [← Equiv.sum_comp (contrEquiv1 dot_S1x11_S11x1_S1x1_1_0_0_1_n_n 11 rfl rfl).symm]
  refine Finset.sum_congr rfl fun s _ => ?_
  refine congrArg₂ (· * ·) (congrArg A (funext fun a => Fin.ext ?_)) (congrArg B (funext fun a => Fin.ext ?_))
  · match a with
    | ⟨0, _⟩ => exact cl_lhs_0 _ _
    | ⟨1, _⟩ => exact (cl_lhs_1 _ _).trans (contrEquiv1_symm_val dot_S1x11_S11x1_S1x1_1_0_0_1_n_n 11 rfl rfl s)
  · match a with
    | ⟨0, _⟩ => exact (cl_rhs_0 _ _).trans (contrEquiv1_symm_val dot_S1x11_S11x1_S1x1_1_0_0_1_n_n 11 rfl rfl s)
    | ⟨1, _⟩ => exact cl_rhs_1 _ _

/-! ## The lane sum of a `[11, 128]` vector -/

theorem rowsum_at (v : FVec Ideal S11x128 .f32) (k : Fin 11) :
    multiReduction (F := Ideal) .add [1] S11 v 0x00000000#32 Facts₀.reduces_S11x128_S11 (.inl rfl) rfl (ix1 k)
      = ∑ d : Fin 128, v (ix2 k d) := by
  refine (Ideal.multiReduction_add_single v _ _ _ _ (ix1 k)).trans ?_
  refine Finset.sum_congr rfl fun d _ => congrArg v (funext fun a => Fin.ext ?_)
  match a with
  | ⟨0, _⟩ => rfl
  | ⟨1, _⟩ => rfl

/-! ## The one-hot matrix of a row of words, a slab as a matrix, and the rows they select -/

/-- The one-hot matrix of eleven words: entry `(k, s)` compares lane `s` with word `k`. -/
theorem onehot_at (t : Vec Ideal S1x11 .i32) (k : Fin 11) (s : Fin 2048) :
    k0_pay7 (F := Ideal) t (ix2 k s) = hot (t (ix2 (0 : Fin 1) k)) s := by
  have e1 : iota .tc S11x2048 32 [1] Facts₀.iota_S11x2048_d1_w32 (ix2 k s) = BitVec.ofNat 32 s.val :=
    iota_axis1_apply .tc 32 Facts₀.iota_S11x2048_d1_w32 k s
  have e2 : broadcastTo S11x2048 (shapeCast S11x1 (shapeCast S11 t Facts₀.shapeCasts_S1x11_S11) Facts₀.shapeCasts_S11_S11x1)
      Facts₀.broadcasts_S11x1_S11x2048 (ix2 k s) = t (ix2 (0 : Fin 1) k) :=
    (broadcastTo_a1_ab_apply _ _ k s).trans ((shapeCast_a_a1_apply _ _ k 0).trans (shapeCast_1a_a_apply t _ k))
  exact congrArg₂ (fun a b : BitVec 32 => ((((IntOp.cmpi .eq a b).setWidth 32).toInt : ℝ) : EReal)) e1 e2

/-- A `[2048, 1, 128]` slab as a `[2048, 128]` matrix. -/
theorem slab_at (x : Vec Ideal S2048x1x128 .f32) (s : Fin 2048) (d : Fin 128) :
    k0_pay3 (F := Ideal) x (ix2 s d) = x (ix3 s (0 : Fin 1) d) :=
  shapeCast_a1b_ab_apply x Facts₀.shapeCasts_S2048x1x128_S2048x128 s d

/-- The rows of a slab that a row of words names: the one-hot matrix times the slab. -/
def sel (t : Vec Ideal S1x11 .i32) (x : Vec Ideal S2048x1x128 .f32) : FVec Ideal S11x128 .f32 :=
  matmul dot_S11x2048_S2048x128_S11x128_1_0_0_1_n_n none (k0_pay7 (F := Ideal) t) (k0_pay3 (F := Ideal) x)
    (constant (F := Ideal) S11x128 .f32 0x00000000#32)

theorem sel_at (t : Vec Ideal S1x11 .i32) (ht : RowIn t) (x : Vec Ideal S2048x1x128 .f32) (k : Fin 11) (d : Fin 128) :
    sel t x (ix2 k d) = x (ix3 (rowOf (t (ix2 (0 : Fin 1) k))) (0 : Fin 1) d) := by
  unfold sel
  refine (matmul_at _ _ k d).trans ?_
  refine (Finset.sum_congr rfl fun s _ => congrArg₂ (· * ·) (onehot_at t k s) (slab_at x s d)).trans ?_
  exact sum_hot (t (ix2 (0 : Fin 1) k)) (ht k).1 (ht k).2 fun s => x (ix3 s (0 : Fin 1) d)

/-! ## From two selected row blocks to the losses -/

/-- The eleven losses from the two `[11, 128]` row blocks `P`, `Q` and the targets. -/
def lossVec (P Q : FVec Ideal S11x128 .f32) (tg : Vec Ideal S1x11x1 .f32) : FVec Ideal S11x1 .f32 :=
  subf (exp (subf (broadcast S11x1 (Scalar.ofBits .f32 0x00000000#32))
      (sqrt (shapeCast S11x1
        (multiReduction .add [1] S11
          (mulf (addf (subf P Q) (broadcast S11x128 (Scalar.ofBits .f32 0x358637BD#32)))
                (addf (subf P Q) (broadcast S11x128 (Scalar.ofBits .f32 0x358637BD#32))))
          0x00000000#32 Facts₀.reduces_S11x128_S11 (.inl rfl) rfl)
        Facts₀.shapeCasts_S11_S11x1))))
    (shapeCast S11x1 tg Facts₀.shapeCasts_S1x11x1_S11x1)

theorem lossVec_at (P Q : FVec Ideal S11x128 .f32) (tg : Vec Ideal S1x11x1 .f32) (k : Fin 11) :
    lossVec P Q tg (ix2 k (0 : Fin 1))
      = Ideal.exp (-(Ideal.sqrt (∑ d : Fin 128, (P (ix2 k d) - Q (ix2 k d) + eps) * (P (ix2 k d) - Q (ix2 k d) + eps))))
          - tg (ix3 (0 : Fin 1) k (0 : Fin 1)) := by
  unfold lossVec
  refine (congrArg₂ (fun a b : EReal => Ideal.exp (Ideal.ofBits .f32 0x00000000#32 - Ideal.sqrt a) - b)
    ((shapeCast_a_a1_apply _ _ k 0).trans (rowsum_at _ k)) (shapeCast_1ab_ab_apply tg _ k 0)).trans ?_
  rw [Ideal.ofBits_zero_f32, zero_sub]
  rfl

theorem step_eq (tv : FVec Ideal S11x1 .f32) (na ne fa fe : Vec Ideal S1x11 .i32) (near far : Vec Ideal S2048x1x128 .f32)
    (nt ft : Vec Ideal S1x11x1 .f32) :
    step (F := Ideal) tv na ne fa fe near far nt ft
      = addf (addf tv (mulf (lossVec (sel na near) (sel ne near) nt) (lossVec (sel na near) (sel ne near) nt)))
          (mulf (lossVec (sel fa far) (sel fe far) ft) (lossVec (sel fa far) (sel fe far) ft)) := rfl

theorem colLoss_eq (x : Vec Ideal S2048x1x128 .f32) (ta te : Vec Ideal S1x11 .i32) (tg : Vec Ideal S1x11x1 .f32)
    (hta : RowIn ta) (hte : RowIn te) (k : Fin 11) :
    lossVec (sel ta x) (sel te x) tg (ix2 k (0 : Fin 1)) = colLoss x ta te tg k := by
  rw [lossVec_at]
  unfold colLoss
  simp only [sel_at ta hta x k, sel_at te hte x k]

/-- ONE COLUMN at slot `k`: the running entry plus the near triple's squared loss plus the far triple's. -/
theorem step_apply (tv : FVec Ideal S11x1 .f32) (na ne fa fe : Vec Ideal S1x11 .i32) (near far : Vec Ideal S2048x1x128 .f32)
    (nt ft : Vec Ideal S1x11x1 .f32) (hna : RowIn na) (hne : RowIn ne) (hfa : RowIn fa) (hfe : RowIn fe) (k : Fin 11) :
    step (F := Ideal) tv na ne fa fe near far nt ft (ix2 k (0 : Fin 1))
      = tv (ix2 k (0 : Fin 1)) + colLoss near na ne nt k * colLoss near na ne nt k
          + colLoss far fa fe ft k * colLoss far fa fe ft k := by
  rw [step_eq, ← colLoss_eq near na ne nt hna hne k, ← colLoss_eq far fa fe ft hfa hfe k]
  rfl

/-- THE CLOSE at its one entry: the accumulator plus the sum of the running vector's eleven entries. -/
theorem close_apply (tv : FVec Ideal S11x1 .f32) (prev : Vec Ideal S1x1 .f32) :
    close (F := Ideal) tv prev (ix2 (0 : Fin 1) (0 : Fin 1))
      = prev (ix2 (0 : Fin 1) (0 : Fin 1)) + ∑ k : Fin 11, tv (ix2 k (0 : Fin 1)) := by
  unfold close
  refine (congrFun (shapeCast_self _ _) _).trans ?_
  refine congrArg (prev (ix2 (0 : Fin 1) (0 : Fin 1)) + ·) ?_
  refine (matmul_close_at _ tv).trans ?_
  refine Finset.sum_congr rfl fun s _ => ?_
  show Ideal.ofBits .f32 0x3F800000#32 * tv (ix2 s (0 : Fin 1)) = tv (ix2 s (0 : Fin 1))
  rw [show Ideal.ofBits .f32 0x3F800000#32 = 1 from IdealRules.sign_bit.ideal_onePat .f32, one_mul]

/-- The running vector starts at zero. -/
theorem start_apply (k : Fin 11) : (k0_pay2 (F := Ideal)) (ix2 k (0 : Fin 1)) = 0 :=
  Ideal.ofBits_zero_f32

/-- The accumulator's reset value is zero. -/
theorem reset_apply : (k0_pay1 (F := Ideal)) (ix2 (0 : Fin 1) (0 : Fin 1)) = 0 := by
  unfold k0_pay1
  exact (congrFun (shapeCast_self _ _) _).trans Ideal.ofBits_zero_f32

end Cert.KernelValue

end
-- ==== Proof.KernelPointIdeal.lean ====
/-
  One grid point's contribution at the extended reals.

  A column's loads are plain reads of the point's blocks: row `j` of an index block, column `j` of an array
  block, row `j` of a target block. So column `j` adds to the running entry of slot `k` the squared near loss and the
  squared far loss of `(j, k)`, read off the blocks; the eight columns from zero add up, slot by slot, to the
  sum over `j`; and the close adds the sum over the slots to the accumulator.
-/
import proofs.«429751_j85177791414540_3_alg».proof.Proof.KernelPoint
import proofs.«429751_j85177791414540_3_alg».proof.Proof.KernelStepIdeal

set_option maxRecDepth 65536

noncomputable section

namespace Cert.KernelValue

open Idealize.ShloMosaic Idealize.ShloMosaic.ValueIdx Cert.KernelIdeal Cert.KernelIdeal.Gen Cert.Spec

/-- Every word of an index block names a row of the array. -/
def BlkIn (t : Vec Ideal S8x11 .i32) : Prop :=
  ∀ (j : Fin 8) (k : Fin 11), 0 ≤ (t (ix2 j k)).toInt ∧ (t (ix2 j k)).toInt < 2048

/-- The loss of column `j`, slot `k` of a point's blocks: `exp (−sqrt (∑_d (x[a, j, d] − x[e, j, d] + ε)²)) − target`,
    `a` and `e` the rows the two index blocks' words at `(j, k)` name. -/
def blkLoss (x : Vec Ideal S2048x8x128 .f32) (ta te : Vec Ideal S8x11 .i32) (tg : Vec Ideal S8x11x1 .f32)
    (j : Fin 8) (k : Fin 11) : EReal :=
  Ideal.exp (-(Ideal.sqrt (∑ d : Fin 128,
      (x (ix3 (rowOf (ta (ix2 j k))) j d) - x (ix3 (rowOf (te (ix2 j k))) j d) + eps)
    * (x (ix3 (rowOf (ta (ix2 j k))) j d) - x (ix3 (rowOf (te (ix2 j k))) j d) + eps))))
    - tg (ix3 j k (0 : Fin 1))

/-- Row `j` of an index block, read at slot `k`. -/
theorem ld_words (t : Vec Ideal S8x11 .i32) (j : Nat) (hj : j < 8)
    (h1 : ∀ a, (![j, 0] : Fin 2 → Nat) a + S1x11.size a ≤ S8x11.size a) (k : Fin 11) :
    View.ld t (Rect.unit ![j, 0] S1x11.size h1) (ix2 (0 : Fin 1) k) = t (ix2 (⟨j, hj⟩ : Fin 8) k) := by
  show t _ = t _
  refine congrArg t (funext fun a => Fin.ext ?_)
  match a with
  | ⟨0, _⟩ => show j + 1 * 0 = j; omega
  | ⟨1, _⟩ => show 0 + 1 * k.val = k.val; omega

/-- Column `j` of an array block, read at row `s`, lane `d`. -/
theorem ld_slab (x : Vec Ideal S2048x8x128 .f32) (j : Nat) (hj : j < 8)
    (h2 : ∀ a, (![0, j, 0] : Fin 3 → Nat) a + S2048x1x128.size a ≤ S2048x8x128.size a) (s : Fin 2048) (d : Fin 128) :
    View.ld x (Rect.unit ![0, j, 0] S2048x1x128.size h2) (ix3 s (0 : Fin 1) d) = x (ix3 s (⟨j, hj⟩ : Fin 8) d) := by
  show x _ = x _
  refine congrArg x (funext fun a => Fin.ext ?_)
  match a with
  | ⟨0, _⟩ => show 0 + 1 * s.val = s.val; omega
  | ⟨1, _⟩ => show j + 1 * 0 = j; omega
  | ⟨2, _⟩ => show 0 + 1 * d.val = d.val; omega

/-- Row `j` of a target block, read at slot `k`. -/
theorem ld_target (g : Vec Ideal S8x11x1 .f32) (j : Nat) (hj : j < 8)
    (h3 : ∀ a, (![j, 0, 0] : Fin 3 → Nat) a + S1x11x1.size a ≤ S8x11x1.size a) (k : Fin 11) :
    View.ld g (Rect.unit ![j, 0, 0] S1x11x1.size h3) (ix3 (0 : Fin 1) k (0 : Fin 1)) = g (ix3 (⟨j, hj⟩ : Fin 8) k (0 : Fin 1)) := by
  show g _ = g _
  refine congrArg g (funext fun a => Fin.ext ?_)
  match a with
  | ⟨0, _⟩ => show j + 1 * 0 = j; omega
  | ⟨1, _⟩ => show 0 + 1 * k.val = k.val; omega
  | ⟨2, _⟩ => show 0 + 1 * 0 = 0; omega

/-- A column's loss over its loads is the blocks' loss at that column. -/
theorem colLoss_ld (x : Vec Ideal S2048x8x128 .f32) (ta te : Vec Ideal S8x11 .i32) (tg : Vec Ideal S8x11x1 .f32)
    (j : Nat) (hj : j < 8)
    (h1 : ∀ a, (![j, 0] : Fin 2 → Nat) a + S1x11.size a ≤ S8x11.size a)
    (h2 : ∀ a, (![0, j, 0] : Fin 3 → Nat) a + S2048x1x128.size a ≤ S2048x8x128.size a)
    (h3 : ∀ a, (![j, 0, 0] : Fin 3 → Nat) a + S1x11x1.size a ≤ S8x11x1.size a) (k : Fin 11) :
    colLoss (View.ld x (Rect.unit ![0, j, 0] S2048x1x128.size h2)) (View.ld ta (Rect.unit ![j, 0] S1x11.size h1))
        (View.ld te (Rect.unit ![j, 0] S1x11.size h1)) (View.ld tg (Rect.unit ![j, 0, 0] S1x11x1.size h3)) k
      = blkLoss x ta te tg ⟨j, hj⟩ k := by
  unfold colLoss blkLoss
  rw [ld_words ta j hj h1 k, ld_words te j hj h1 k, ld_target tg j hj h3 k]
  simp only [ld_slab x j hj h2]

/-- ONE COLUMN at slot `k`: the running entry plus the two squared losses of `(j, k)`. -/
theorem col_apply (tv : FVec Ideal S11x1 .f32) (x0 x1 x2 x3 : Vec Ideal S8x11 .i32) (x4 x5 : Vec Ideal S8x11x1 .f32) (x6 x7 : Vec Ideal S2048x8x128 .f32) (j : Nat) (hj : j < 8)
    (h1 : ∀ a, (![j, 0] : Fin 2 → Nat) a + S1x11.size a ≤ S8x11.size a)
    (h2 : ∀ a, (![0, j, 0] : Fin 3 → Nat) a + S2048x1x128.size a ≤ S2048x8x128.size a)
    (h3 : ∀ a, (![j, 0, 0] : Fin 3 → Nat) a + S1x11x1.size a ≤ S8x11x1.size a)
    (b0 : BlkIn x0) (b1 : BlkIn x1) (b2 : BlkIn x2) (b3 : BlkIn x3) (k : Fin 11) :
    col (F := Ideal) tv x0 x1 x2 x3 x4 x5 x6 x7 j h1 h2 h3 (ix2 k (0 : Fin 1))
      = tv (ix2 k (0 : Fin 1)) + blkLoss x6 x0 x1 x4 ⟨j, hj⟩ k * blkLoss x6 x0 x1 x4 ⟨j, hj⟩ k
          + blkLoss x7 x2 x3 x5 ⟨j, hj⟩ k * blkLoss x7 x2 x3 x5 ⟨j, hj⟩ k := by
  unfold col
  refine (step_apply tv (View.ld x0 (Rect.unit ![j, 0] S1x11.size h1)) (View.ld x1 (Rect.unit ![j, 0] S1x11.size h1))
    (View.ld x2 (Rect.unit ![j, 0] S1x11.size h1)) (View.ld x3 (Rect.unit ![j, 0] S1x11.size h1))
    (View.ld x6 (Rect.unit ![0, j, 0] S2048x1x128.size h2)) (View.ld x7 (Rect.unit ![0, j, 0] S2048x1x128.size h2))
    (View.ld x4 (Rect.unit ![j, 0, 0] S1x11x1.size h3)) (View.ld x5 (Rect.unit ![j, 0, 0] S1x11x1.size h3))
    (fun k' => by rw [ld_words x0 j hj h1 k']; exact b0 ⟨j, hj⟩ k')
    (fun k' => by rw [ld_words x1 j hj h1 k']; exact b1 ⟨j, hj⟩ k')
    (fun k' => by rw [ld_words x2 j hj h1 k']; exact b2 ⟨j, hj⟩ k')
    (fun k' => by rw [ld_words x3 j hj h1 k']; exact b3 ⟨j, hj⟩ k') k).trans ?_
  rw [colLoss_ld x6 x0 x1 x4 j hj h1 h2 h3 k, colLoss_ld x7 x2 x3 x5 j hj h1 h2 h3 k]

/-- The eight columns from zero, at slot `k`: the sum over the columns of the two squared losses. -/
theorem cols_apply (x0 x1 x2 x3 : Vec Ideal S8x11 .i32) (x4 x5 : Vec Ideal S8x11x1 .f32) (x6 x7 : Vec Ideal S2048x8x128 .f32) (b0 : BlkIn x0) (b1 : BlkIn x1) (b2 : BlkIn x2) (b3 : BlkIn x3) (k : Fin 11) :
    cols (F := Ideal) x0 x1 x2 x3 x4 x5 x6 x7 (ix2 k (0 : Fin 1))
      = ∑ j : Fin 8, (blkLoss x6 x0 x1 x4 j k * blkLoss x6 x0 x1 x4 j k + blkLoss x7 x2 x3 x5 j k * blkLoss x7 x2 x3 x5 j k) := by
  unfold cols
  rw [col_apply _ x0 x1 x2 x3 x4 x5 x6 x7 7 (by decide) _ _ _ b0 b1 b2 b3 k,
    col_apply _ x0 x1 x2 x3 x4 x5 x6 x7 6 (by decide) _ _ _ b0 b1 b2 b3 k,
    col_apply _ x0 x1 x2 x3 x4 x5 x6 x7 5 (by decide) _ _ _ b0 b1 b2 b3 k,
    col_apply _ x0 x1 x2 x3 x4 x5 x6 x7 4 (by decide) _ _ _ b0 b1 b2 b3 k,
    col_apply _ x0 x1 x2 x3 x4 x5 x6 x7 3 (by decide) _ _ _ b0 b1 b2 b3 k,
    col_apply _ x0 x1 x2 x3 x4 x5 x6 x7 2 (by decide) _ _ _ b0 b1 b2 b3 k,
    col_apply _ x0 x1 x2 x3 x4 x5 x6 x7 1 (by decide) _ _ _ b0 b1 b2 b3 k,
    col_apply _ x0 x1 x2 x3 x4 x5 x6 x7 0 (by decide) _ _ _ b0 b1 b2 b3 k,
    start_apply k, Fin.sum_univ_eight]
  simp only [zero_add, add_assoc]
  rfl

/-- ONE GRID POINT at its one entry: the accumulator plus the sum over slots and columns of the two squared losses. -/
theorem point_apply (x0 x1 x2 x3 : Vec Ideal S8x11 .i32) (x4 x5 : Vec Ideal S8x11x1 .f32) (x6 x7 : Vec Ideal S2048x8x128 .f32) (prev : Vec Ideal S1x1 .f32)
    (b0 : BlkIn x0) (b1 : BlkIn x1) (b2 : BlkIn x2) (b3 : BlkIn x3) :
    point (F := Ideal) x0 x1 x2 x3 x4 x5 x6 x7 prev (ix2 (0 : Fin 1) (0 : Fin 1))
      = prev (ix2 (0 : Fin 1) (0 : Fin 1))
        + ∑ k : Fin 11, ∑ j : Fin 8,
            (blkLoss x6 x0 x1 x4 j k * blkLoss x6 x0 x1 x4 j k + blkLoss x7 x2 x3 x5 j k * blkLoss x7 x2 x3 x5 j k) := by
  unfold point
  rw [close_apply]
  simp only [cols_apply x0 x1 x2 x3 x4 x5 x6 x7 b0 b1 b2 b3]

end Cert.KernelValue

end
-- ==== Proof.SumGrid.lean ====
/-
  The summation algebra under the kernel's value, in any additive commutative monoid.

  The grid's thirty-two points each cover eight batch columns, `b = 8·t + j`. An accumulator that starts at
  `0 + P 0` and adds `P (n + 1)` at each later point ends at the sum of the `P t`; and summing, over the points, the
  slots and the point's eight columns, a near term plus a far term is the near terms' double sum over all
  `(b, k)` plus the far terms'. Only commutativity and associativity of `+` are used, so this holds on the
  extended reals with their infinities.
-/
import Mathlib.Algebra.BigOperators.Fin
import Mathlib.Algebra.BigOperators.Group.Finset.Basic
import Mathlib.Logic.Equiv.Fin.Basic
import Mathlib.Data.Fintype.BigOperators

namespace Cert.SumGrid

/-- Batch column `8·t + j`: column `j` of grid point `t`. -/
def blk (t : Fin 32) (j : Fin 8) : Fin 256 := ⟨8 * t.val + j.val, by omega⟩

/-- After point `n` the accumulator holds the sum of the first `n + 1` terms. -/
theorem chain_partial {M : Type*} [AddCommMonoid M] (P : Fin 32 → M) (r : (n : ℕ) → n < 32 → M)
    (h0 : r 0 (by decide) = 0 + P 0)
    (hs : ∀ (n : ℕ) (h : n + 1 < 32), r (n + 1) h = r n (Nat.lt_of_succ_lt h) + P ⟨n + 1, h⟩) :
    ∀ (n : ℕ) (h : n < 32), r n h = ∑ t : Fin (n + 1), P ⟨t.val, by omega⟩ := by
  intro n
  induction n with
  | zero =>
    intro h
    rw [h0, zero_add, Fin.sum_univ_castSucc, Fin.sum_univ_zero, zero_add]
    rfl
  | succ n ih =>
    intro h
    rw [hs n h, ih (Nat.lt_of_succ_lt h)]
    exact (Fin.sum_univ_castSucc (fun t : Fin (n + 1 + 1) => P ⟨t.val, by omega⟩)).symm

/-- The ordered chain over the thirty-two points is their sum. -/
theorem chain_eq_sum {M : Type*} [AddCommMonoid M] (P : Fin 32 → M) (r : (n : ℕ) → n < 32 → M)
    (h0 : r 0 (by decide) = 0 + P 0)
    (hs : ∀ (n : ℕ) (h : n + 1 < 32), r (n + 1) h = r n (Nat.lt_of_succ_lt h) + P ⟨n + 1, h⟩) :
    r 31 (by decide) = ∑ t : Fin 32, P t := by
  rw [chain_partial P r h0 hs 31 (by decide)]

/-- A point and one of its eight columns name a batch column, and every batch column arises once:
`b = 8·(b / 8) + b % 8`. -/
def gridEquiv : Fin 32 × Fin 8 ≃ Fin 256 where
  toFun p := blk p.1 p.2
  invFun b := (⟨b.val / 8, by omega⟩, ⟨b.val % 8, by omega⟩)
  left_inv := by
    rintro ⟨t, j⟩
    apply Prod.ext
    · apply Fin.ext
      show (8 * t.val + j.val) / 8 = t.val
      omega
    · apply Fin.ext
      show (8 * t.val + j.val) % 8 = j.val
      omega
  right_inv := by
    intro b
    apply Fin.ext
    show 8 * (b.val / 8) + b.val % 8 = b.val
    omega

/-- Summing over the points and each point's eight columns is summing over the batch columns. -/
theorem sum_blk {M : Type*} [AddCommMonoid M] (f : Fin 256 → M) :
    ∑ t : Fin 32, ∑ j : Fin 8, f (blk t j) = ∑ b : Fin 256, f b := by
  rw [← Fintype.sum_prod_type' (fun t j => f (blk t j))]
  exact Equiv.sum_comp gridEquiv f

/-- Points, slots and columns regrouped: the near terms' double sum plus the far terms'. -/
theorem sum_grid {M : Type*} [AddCommMonoid M] (A B : Fin 256 → Fin 11 → M) :
    ∑ t : Fin 32, ∑ k : Fin 11, ∑ j : Fin 8, (A (blk t j) k + B (blk t j) k)
      = (∑ b : Fin 256, ∑ k : Fin 11, A b k) + ∑ b : Fin 256, ∑ k : Fin 11, B b k := by
  calc ∑ t : Fin 32, ∑ k : Fin 11, ∑ j : Fin 8, (A (blk t j) k + B (blk t j) k)
      = ∑ t : Fin 32, ∑ j : Fin 8, ∑ k : Fin 11, (A (blk t j) k + B (blk t j) k) :=
        Finset.sum_congr rfl (fun _ _ => Finset.sum_comm)
    _ = ∑ b : Fin 256, ∑ k : Fin 11, (A b k + B b k) :=
        sum_blk (fun b => ∑ k : Fin 11, (A b k + B b k))
    _ = (∑ b : Fin 256, ∑ k : Fin 11, A b k) + ∑ b : Fin 256, ∑ k : Fin 11, B b k := by
        simp only [Finset.sum_add_distrib]

end Cert.SumGrid
-- ==== Proof.KernelValue.lean ====
/-
  The kernel's result at the extended reals is the specification.

  Column `j` of grid point `t` is batch column `8·t + j` of the argument arrays: an index block's word at `(j, k)` is
  the table's at `(8t + j, k)`, an array block's element at `(s, j, d)` the array's at `(s, 8t + j, d)`, a target block's
  at `(j, k)` the target vector's at position `11·(8t + j) + k` (the targets reach the kernel reshaped to `[256, 11, 1]`).
  So each point adds to the accumulator the squared losses of its eight columns, the accumulator after the last point
  is the sum over all points, and regrouped by batch column that is the near double sum plus the far one.
-/
import proofs.«429751_j85177791414540_3_alg».proof.Proof.KernelRun
import proofs.«429751_j85177791414540_3_alg».proof.Proof.KernelPointIdeal
import proofs.«429751_j85177791414540_3_alg».proof.Proof.SumGrid
import Idealize.ShloMosaic.Lib.StableHlo.Run

set_option maxRecDepth 65536

noncomputable section

namespace Cert.KernelValue

open Idealize.ShloMosaic Idealize.ShloMosaic.TcCoe Idealize.ShloMosaic.ValueIdx Idealize.SL.Sem
open Cert.KernelIdeal Cert.KernelIdeal.Gen Cert.Spec Cert.SumGrid

variable (m : (ℓ : Loc nD τ sig) → Buf (Elt Ideal) ℓ)

/-- A grid point as a number below 32. -/
def tNum (t : Fin cfg0.N) : Fin 32 := ⟨t.val, lt_of_lt_of_eq t.isLt (show cfg0.N = 32 from N_0)⟩

/-! ## The blocks, read off the argument arrays

Each window's block index at point `t` is `t` on the batch axis and `0` elsewhere (decided once over the grid), and a
block's element sits in its array at block index × block size + its own coordinate. -/

theorem words0 (c : Dev nD) (t : Fin cfg0.N) (j : Fin 8) (k : Fin 11) :
    (iblk m c 0 t : Vec Ideal S8x11 .i32) (ix2 j k) = m ((c : Thread nD τ).loc main_arg2) (ix2 (blk (tNum t) j) k) := by
  have hi := (by decide +kernel : ∀ t : Fin grid0.N, win0_0.index t 0 = t.val ∧ win0_0.index t 1 = 0) t
  unfold iblk
  rw [View.read_apply]
  show V m c main_arg2 _ = m ((c : Thread nD τ).loc main_arg2) _
  rw [V_main_arg2]
  refine congrArg _ (funext fun a => Fin.ext ?_)
  match a with
  | ⟨0, _⟩ => show win0_0.index t 0 * 8 + 1 * j.val = 8 * t.val + j.val; rw [hi.1]; omega
  | ⟨1, _⟩ => show win0_0.index t 1 * 11 + 1 * k.val = k.val; rw [hi.2]; omega

theorem words1 (c : Dev nD) (t : Fin cfg0.N) (j : Fin 8) (k : Fin 11) :
    (iblk m c 1 t : Vec Ideal S8x11 .i32) (ix2 j k) = m ((c : Thread nD τ).loc main_arg4) (ix2 (blk (tNum t) j) k) := by
  have hi := (by decide +kernel : ∀ t : Fin grid0.N, win0_1.index t 0 = t.val ∧ win0_1.index t 1 = 0) t
  unfold iblk
  rw [View.read_apply]
  show V m c main_arg4 _ = m ((c : Thread nD τ).loc main_arg4) _
  rw [V_main_arg4]
  refine congrArg _ (funext fun a => Fin.ext ?_)
  match a with
  | ⟨0, _⟩ => show win0_1.index t 0 * 8 + 1 * j.val = 8 * t.val + j.val; rw [hi.1]; omega
  | ⟨1, _⟩ => show win0_1.index t 1 * 11 + 1 * k.val = k.val; rw [hi.2]; omega

theorem words2 (c : Dev nD) (t : Fin cfg0.N) (j : Fin 8) (k : Fin 11) :
    (iblk m c 2 t : Vec Ideal S8x11 .i32) (ix2 j k) = m ((c : Thread nD τ).loc main_arg3) (ix2 (blk (tNum t) j) k) := by
  have hi := (by decide +kernel : ∀ t : Fin grid0.N, win0_2.index t 0 = t.val ∧ win0_2.index t 1 = 0) t
  unfold iblk
  rw [View.read_apply]
  show V m c main_arg3 _ = m ((c : Thread nD τ).loc main_arg3) _
  rw [V_main_arg3]
  refine congrArg _ (funext fun a => Fin.ext ?_)
  match a with
  | ⟨0, _⟩ => show win0_2.index t 0 * 8 + 1 * j.val = 8 * t.val + j.val; rw [hi.1]; omega
  | ⟨1, _⟩ => show win0_2.index t 1 * 11 + 1 * k.val = k.val; rw [hi.2]; omega

theorem words3 (c : Dev nD) (t : Fin cfg0.N) (j : Fin 8) (k : Fin 11) :
    (iblk m c 3 t : Vec Ideal S8x11 .i32) (ix2 j k) = m ((c : Thread nD τ).loc main_arg5) (ix2 (blk (tNum t) j) k) := by
  have hi := (by decide +kernel : ∀ t : Fin grid0.N, win0_3.index t 0 = t.val ∧ win0_3.index t 1 = 0) t
  unfold iblk
  rw [View.read_apply]
  show V m c main_arg5 _ = m ((c : Thread nD τ).loc main_arg5) _
  rw [V_main_arg5]
  refine congrArg _ (funext fun a => Fin.ext ?_)
  match a with
  | ⟨0, _⟩ => show win0_3.index t 0 * 8 + 1 * j.val = 8 * t.val + j.val; rw [hi.1]; omega
  | ⟨1, _⟩ => show win0_3.index t 1 * 11 + 1 * k.val = k.val; rw [hi.2]; omega

theorem slab6 (c : Dev nD) (t : Fin cfg0.N) (s : Fin 2048) (j : Fin 8) (d : Fin 128) :
    (iblk m c 6 t : Vec Ideal S2048x8x128 .f32) (ix3 s j d) = m ((c : Thread nD τ).loc main_arg0) (ix3 s (blk (tNum t) j) d) := by
  have hi := (by decide +kernel : ∀ t : Fin grid0.N, win0_6.index t 0 = 0 ∧ win0_6.index t 1 = t.val ∧ win0_6.index t 2 = 0) t
  unfold iblk
  rw [View.read_apply]
  show V m c main_arg0 _ = m ((c : Thread nD τ).loc main_arg0) _
  rw [V_main_arg0]
  refine congrArg _ (funext fun a => Fin.ext ?_)
  match a with
  | ⟨0, _⟩ => show win0_6.index t 0 * 2048 + 1 * s.val = s.val; rw [hi.1]; omega
  | ⟨1, _⟩ => show win0_6.index t 1 * 8 + 1 * j.val = 8 * t.val + j.val; rw [hi.2.1]; omega
  | ⟨2, _⟩ => show win0_6.index t 2 * 128 + 1 * d.val = d.val; rw [hi.2.2]; omega

theorem slab7 (c : Dev nD) (t : Fin cfg0.N) (s : Fin 2048) (j : Fin 8) (d : Fin 128) :
    (iblk m c 7 t : Vec Ideal S2048x8x128 .f32) (ix3 s j d) = m ((c : Thread nD τ).loc main_arg1) (ix3 s (blk (tNum t) j) d) := by
  have hi := (by decide +kernel : ∀ t : Fin grid0.N, win0_7.index t 0 = 0 ∧ win0_7.index t 1 = t.val ∧ win0_7.index t 2 = 0) t
  unfold iblk
  rw [View.read_apply]
  show V m c main_arg1 _ = m ((c : Thread nD τ).loc main_arg1) _
  rw [V_main_arg1]
  refine congrArg _ (funext fun a => Fin.ext ?_)
  match a with
  | ⟨0, _⟩ => show win0_7.index t 0 * 2048 + 1 * s.val = s.val; rw [hi.1]; omega
  | ⟨1, _⟩ => show win0_7.index t 1 * 8 + 1 * j.val = 8 * t.val + j.val; rw [hi.2.1]; omega
  | ⟨2, _⟩ => show win0_7.index t 2 * 128 + 1 * d.val = d.val; rw [hi.2.2]; omega

/-- A `[2816]` vector reshaped to `[256, 11, 1]` reads, at `(b, k, 0)`, the vector at position `11·b + k`. -/
theorem reshape_target (x : (⟨1, ![2816]⟩ : Shape).Idx → EReal)
    (h : (⟨1, ![2816]⟩ : Shape).ShapeCasts ⟨3, ![256, 11, 1]⟩) (b : Fin 256) (k : Fin 11) :
    shapeCast ⟨3, ![256, 11, 1]⟩ x h (ix3 b k (0 : Fin 1)) = x (ix1 (flat b k)) := by
  refine shapeCast_apply x h _ _ ?_
  rw [Shape.rowMajor_val_one, Shape.rowMajor_val_three]
  show b.val * 11 + k.val = (b.val * 11 + k.val) * 1 + 0
  omega

/-- The near targets as the region finds them: the host reshape of the `[2816]` argument. -/
theorem targets4_at (c : Dev nD) (b : Fin 256) (k : Fin 11) :
    (V m c main_v0 : S256x11x1.Idx → EReal) (ix3 b k (0 : Fin 1)) = m ((c : Thread nD τ).loc main_arg6) (ix1 (flat b k)) := by
  have e : (V m c main_v0 : S256x11x1.Idx → EReal)
      = shapeCast S256x11x1 (m ((c : Thread nD τ).loc main_arg6)) Facts₀.shapeCasts_S2816_S256x11x1 := by
    show StableHlo.after hostOps0 (fun b => m (c, b)) (Proc.devRef .tc main_v0) = _
    after_results
    rfl
  rw [e]
  exact reshape_target _ _ b k

/-- The far targets, likewise. -/
theorem targets5_at (c : Dev nD) (b : Fin 256) (k : Fin 11) :
    (V m c main_v1 : S256x11x1.Idx → EReal) (ix3 b k (0 : Fin 1)) = m ((c : Thread nD τ).loc main_arg7) (ix1 (flat b k)) := by
  have e : (V m c main_v1 : S256x11x1.Idx → EReal)
      = shapeCast S256x11x1 (m ((c : Thread nD τ).loc main_arg7)) Facts₀.shapeCasts_S2816_S256x11x1 := by
    show StableHlo.after hostOps0 (fun b => m (c, b)) (Proc.devRef .tc main_v1) = _
    after_results
    rfl
  rw [e]
  exact reshape_target _ _ b k

theorem target4 (c : Dev nD) (t : Fin cfg0.N) (j : Fin 8) (k : Fin 11) :
    (iblk m c 4 t : Vec Ideal S8x11x1 .f32) (ix3 j k (0 : Fin 1))
      = m ((c : Thread nD τ).loc main_arg6) (ix1 (flat (blk (tNum t) j) k)) := by
  have hi := (by decide +kernel : ∀ t : Fin grid0.N, win0_4.index t 0 = t.val ∧ win0_4.index t 1 = 0 ∧ win0_4.index t 2 = 0) t
  unfold iblk
  rw [View.read_apply]
  refine Eq.trans ?_ (targets4_at m c (blk (tNum t) j) k)
  show V m c main_v0 _ = V m c main_v0 _
  refine congrArg _ (funext fun a => Fin.ext ?_)
  match a with
  | ⟨0, _⟩ => show win0_4.index t 0 * 8 + 1 * j.val = 8 * t.val + j.val; rw [hi.1]; omega
  | ⟨1, _⟩ => show win0_4.index t 1 * 11 + 1 * k.val = k.val; rw [hi.2.1]; omega
  | ⟨2, _⟩ => show win0_4.index t 2 * 1 + 1 * 0 = 0; rw [hi.2.2]

theorem target5 (c : Dev nD) (t : Fin cfg0.N) (j : Fin 8) (k : Fin 11) :
    (iblk m c 5 t : Vec Ideal S8x11x1 .f32) (ix3 j k (0 : Fin 1))
      = m ((c : Thread nD τ).loc main_arg7) (ix1 (flat (blk (tNum t) j) k)) := by
  have hi := (by decide +kernel : ∀ t : Fin grid0.N, win0_5.index t 0 = t.val ∧ win0_5.index t 1 = 0 ∧ win0_5.index t 2 = 0) t
  unfold iblk
  rw [View.read_apply]
  refine Eq.trans ?_ (targets5_at m c (blk (tNum t) j) k)
  show V m c main_v1 _ = V m c main_v1 _
  refine congrArg _ (funext fun a => Fin.ext ?_)
  match a with
  | ⟨0, _⟩ => show win0_5.index t 0 * 8 + 1 * j.val = 8 * t.val + j.val; rw [hi.1]; omega
  | ⟨1, _⟩ => show win0_5.index t 1 * 11 + 1 * k.val = k.val; rw [hi.2.1]; omega
  | ⟨2, _⟩ => show win0_5.index t 2 * 1 + 1 * 0 = 0; rw [hi.2.2]

/-! ## One point's contribution, in terms of the argument arrays -/

/-- The near triple's loss of column `j`, slot `k` at point `t` is the specification's at batch column `8t + j`. -/
theorem near_loss (c : Dev nD) (t : Fin cfg0.N) (j : Fin 8) (k : Fin 11) :
    blkLoss (iblk m c 6 t) (iblk m c 0 t) (iblk m c 1 t) (iblk m c 4 t) j k
      = loss (m ((c : Thread nD τ).loc main_arg0)) (m ((c : Thread nD τ).loc main_arg2)) (m ((c : Thread nD τ).loc main_arg4))
          (m ((c : Thread nD τ).loc main_arg6)) (blk (tNum t) j) k := by
  unfold blkLoss loss sqDist
  rw [words0 m c t j k, words1 m c t j k, target4 m c t j k]
  simp only [slab6 m c t]

/-- The far triple's, likewise. -/
theorem far_loss (c : Dev nD) (t : Fin cfg0.N) (j : Fin 8) (k : Fin 11) :
    blkLoss (iblk m c 7 t) (iblk m c 2 t) (iblk m c 3 t) (iblk m c 5 t) j k
      = loss (m ((c : Thread nD τ).loc main_arg1)) (m ((c : Thread nD τ).loc main_arg3)) (m ((c : Thread nD τ).loc main_arg5))
          (m ((c : Thread nD τ).loc main_arg7)) (blk (tNum t) j) k := by
  unfold blkLoss loss sqDist
  rw [words2 m c t j k, words3 m c t j k, target5 m c t j k]
  simp only [slab7 m c t]

/-- What grid point `t` adds to the accumulator: the squared losses of its eight columns, over the slots. -/
def contrib (c : Dev nD) (t : Fin 32) : EReal :=
  ∑ k : Fin 11, ∑ j : Fin 8,
    (lossSq (m ((c : Thread nD τ).loc main_arg0)) (m ((c : Thread nD τ).loc main_arg2)) (m ((c : Thread nD τ).loc main_arg4))
        (m ((c : Thread nD τ).loc main_arg6)) (blk t j) k
      + lossSq (m ((c : Thread nD τ).loc main_arg1)) (m ((c : Thread nD τ).loc main_arg3)) (m ((c : Thread nD τ).loc main_arg5))
        (m ((c : Thread nD τ).loc main_arg7)) (blk t j) k)

/-- ONE GRID POINT, over the argument arrays: the accumulator plus the point's contribution. -/
theorem pointAt_apply (c : Dev nD) (t : Fin cfg0.N) (prev : Vec Ideal S1x1 .f32)
    (h2 : InRows (m ((c : Thread nD τ).loc main_arg2))) (h3 : InRows (m ((c : Thread nD τ).loc main_arg3)))
    (h4 : InRows (m ((c : Thread nD τ).loc main_arg4))) (h5 : InRows (m ((c : Thread nD τ).loc main_arg5))) :
    pointAt m c t prev (ix2 (0 : Fin 1) (0 : Fin 1)) = prev (ix2 (0 : Fin 1) (0 : Fin 1)) + contrib m c (tNum t) := by
  refine (point_apply (iblk m c 0 t) (iblk m c 1 t) (iblk m c 2 t) (iblk m c 3 t) (iblk m c 4 t) (iblk m c 5 t)
    (iblk m c 6 t) (iblk m c 7 t) prev
    (fun j k => by rw [words0 m c t j k]; exact h2 _ _) (fun j k => by rw [words1 m c t j k]; exact h4 _ _)
    (fun j k => by rw [words2 m c t j k]; exact h3 _ _) (fun j k => by rw [words3 m c t j k]; exact h5 _ _)).trans ?_
  unfold contrib lossSq
  simp only [near_loss m c t, far_loss m c t]

/-! ## The accumulator over the grid, and the result -/

/-- The accumulator after the last point is the sum of the thirty-two contributions. -/
theorem acc_value (c : Dev nD)
    (h2 : InRows (m ((c : Thread nD τ).loc main_arg2))) (h3 : InRows (m ((c : Thread nD τ).loc main_arg3)))
    (h4 : InRows (m ((c : Thread nD τ).loc main_arg4))) (h5 : InRows (m ((c : Thread nD τ).loc main_arg5))) :
    acc m c 31 tLast.isLt (ix2 (0 : Fin 1) (0 : Fin 1)) = ∑ t : Fin 32, contrib m c t := by
  have hN : cfg0.N = 32 := N_0
  refine chain_eq_sum (contrib m c)
    (fun n h => acc m c n (lt_of_lt_of_eq h hN.symm) (ix2 (0 : Fin 1) (0 : Fin 1))) ?_ ?_
  · show pointAt m c ⟨0, _⟩ (k0_pay1 (F := Ideal)) (ix2 (0 : Fin 1) (0 : Fin 1)) = 0 + contrib m c 0
    rw [pointAt_apply m c _ _ h2 h3 h4 h5, reset_apply]
    rfl
  · intro n h
    show pointAt m c ⟨n + 1, _⟩ (acc m c n _) (ix2 (0 : Fin 1) (0 : Fin 1)) = acc m c n _ (ix2 (0 : Fin 1) (0 : Fin 1)) + contrib m c ⟨n + 1, h⟩
    rw [pointAt_apply m c _ _ h2 h3 h4 h5]
    rfl

/-- The thirty-two contributions, regrouped by batch column: the near double sum plus the far one. -/
theorem total_eq (c : Dev nD) :
    (∑ t : Fin 32, contrib m c t)
      = (∑ b : Fin 256, ∑ k : Fin 11, lossSq (m ((c : Thread nD τ).loc main_arg0)) (m ((c : Thread nD τ).loc main_arg2))
            (m ((c : Thread nD τ).loc main_arg4)) (m ((c : Thread nD τ).loc main_arg6)) b k)
        + ∑ b : Fin 256, ∑ k : Fin 11, lossSq (m ((c : Thread nD τ).loc main_arg1)) (m ((c : Thread nD τ).loc main_arg3))
            (m ((c : Thread nD τ).loc main_arg5)) (m ((c : Thread nD τ).loc main_arg7)) b k := by
  unfold contrib
  exact sum_grid (M := EReal) _ _

/-- The scalar result is the result array's one entry. -/
theorem result_at (c : Dev nD) (i : S_.Idx) :
    result m c i = acc m c 31 tLast.isLt (ix2 (0 : Fin 1) (0 : Fin 1)) := by
  show shapeCast S_ (outArr m c) Facts₀.shapeCasts_S1x1_S_ i = _
  refine shapeCast_apply _ _ _ _ ?_
  show ((⟨2, ![1, 1]⟩ : Shape).rowMajor (ix2 (0 : Fin 1) (0 : Fin 1))).val = ((⟨0, ![]⟩ : Shape).rowMajor i).val
  have h1 := ((⟨0, ![]⟩ : Shape).rowMajor i).isLt
  have hn : (⟨0, ![]⟩ : Shape).numel = 1 := rfl
  rw [Shape.rowMajor_val_two]
  show (0 : ℕ) * 1 + 0 = _
  omega

/-- THE KERNEL'S RESULT IS THE SPECIFICATION, when every index word names a row. -/
theorem result_eq (c : Dev nD)
    (h2 : InRows (m ((c : Thread nD τ).loc main_arg2))) (h3 : InRows (m ((c : Thread nD τ).loc main_arg3)))
    (h4 : InRows (m ((c : Thread nD τ).loc main_arg4))) (h5 : InRows (m ((c : Thread nD τ).loc main_arg5))) :
    result m c = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) :=
  funext fun i => (result_at m c i).trans ((acc_value m c h2 h3 h4 h5).trans (total_eq m c))

/-- THE RUN, with the result at the specification. -/
theorem run_spec (ρ : Dev nD → PrngReg)
    (hin : ∀ c : Dev nD, InRows (m ((c : Thread nD τ).loc main_arg2)) ∧ InRows (m ((c : Thread nD τ).loc main_arg3))
      ∧ InRows (m ((c : Thread nD τ).loc main_arg4)) ∧ InRows (m ((c : Thread nD τ).loc main_arg5))) :
    θ_run defs (onTc (τ := τ) (main (F := Ideal))) ⟨m, fun _ => 0, ρ⟩ (fun r => ∀ c : Dev nD,
      r.2.mem ((c.tc : Thread nD τ).loc main_v3)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c).1.trans (result_eq m c (hin c).1 (hin c).2.1 (hin c).2.2.1 (hin c).2.2.2), (h c).2⟩) (run m ρ)

end Cert.KernelValue

end
-- ==== Proof.lean ====
/- The proof of `Cert.Claim`: the two kernel programs and the reference run without fault and leave their arguments
   unchanged; the kernel's idealization rewrote nothing; and at the extended reals the idealized kernel and the
   idealized reference, from memories that agree on the eight arguments, end with the same scalar.

   Both programs compute, from two arrays `near, far : [2048, 256, 128]`, four index tables `[256, 11]` and two target
   vectors `[2816]`, the sum over batch columns `b` and slots `k` of
   `(exp (−sqrt (∑_d (x[a, b, d] − x[e, b, d] + ε)²)) − target[11 b + k])²` for the near triple plus the same for the far
   triple, `a` and `e` the rows the two tables' words at `(b, k)` name (Proof/Spec.lean, `G`). The reference gathers the
   rows (a negative index shifted by 2048, then clamped); the kernel selects them with one-hot matrices over the lanes
   `0 … 2047`, eight batch columns per grid point, accumulating over the thirty-two points. The two agree where every
   index word is in `[0, 2048)`, which the precondition states; out of that range the reference still reads some row
   while the kernel's one-hot row is all zeros.

   Proof/PreDecode.lean reads the index range out of the precondition; Proof/RefValue.lean shows the reference's
   composed term is `G`; Proof/KernelValue.lean (over KernelStep, KernelPoint, KernelAcc, KernelRun and the value
   lemmas) shows the kernel's run ends with its result at `G`. Finiteness of the float inputs is never used: `0 · x = 0`,
   `1 · x = x` and the re-association of sums hold for every extended real. -/
import proofs.«429751_j85177791414540_3_alg».proof.Defs
import proofs.«429751_j85177791414540_3_alg».proof.Proof.Gen.Kernel
import proofs.«429751_j85177791414540_3_alg».proof.Proof.Gen.Kernel.Skeleton
import proofs.«429751_j85177791414540_3_alg».proof.Proof.Gen.Kernel.Launch
import proofs.«429751_j85177791414540_3_alg».proof.Proof.Gen.Kernel.Points
import proofs.«429751_j85177791414540_3_alg».proof.Proof.Gen.Kernel.Frame
import proofs.«429751_j85177791414540_3_alg».proof.Proof.Gen.KernelIdeal
import proofs.«429751_j85177791414540_3_alg».proof.Proof.Gen.KernelIdeal.Skeleton
import proofs.«429751_j85177791414540_3_alg».proof.Proof.Gen.KernelIdeal.Launch
import proofs.«429751_j85177791414540_3_alg».proof.Proof.Gen.KernelIdeal.Points
import proofs.«429751_j85177791414540_3_alg».proof.Proof.Gen.KernelIdeal.Frame
import proofs.«429751_j85177791414540_3_alg».proof.Proof.Gen.ReferenceIdeal
import proofs.«429751_j85177791414540_3_alg».proof.Proof.Gen.ReferenceIdeal.Run
import proofs.«429751_j85177791414540_3_alg».proof.Proof.Gen.ReferenceIdeal.Read
import proofs.«429751_j85177791414540_3_alg».proof.Proof.Gen.Pre_finite_inputs
import proofs.«429751_j85177791414540_3_alg».proof.Proof.PreDecode
import proofs.«429751_j85177791414540_3_alg».proof.Proof.RefValue
import proofs.«429751_j85177791414540_3_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel, likewise. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end at the specification of arguments that agree. -/
theorem algebraic : Cert.algebraic_KernelIdeal_ReferenceIdeal := by
  intro m ρ m' ρ' hpre hagree
  have hin : ∀ c : Dev Cert.KernelIdeal.nD,
      Cert.Spec.InRows (m ((c.tc : Thread Cert.KernelIdeal.nD Cert.KernelIdeal.τ).loc Cert.KernelIdeal.main_arg2))
      ∧ Cert.Spec.InRows (m ((c.tc : Thread Cert.KernelIdeal.nD Cert.KernelIdeal.τ).loc Cert.KernelIdeal.main_arg3))
      ∧ Cert.Spec.InRows (m ((c.tc : Thread Cert.KernelIdeal.nD Cert.KernelIdeal.τ).loc Cert.KernelIdeal.main_arg4))
      ∧ Cert.Spec.InRows (m ((c.tc : Thread Cert.KernelIdeal.nD Cert.KernelIdeal.τ).loc Cert.KernelIdeal.main_arg5)) :=
    fun c => Cert.PreDecode.inRows _ _ _ _ _ _ _ _ (hpre c)
  refine ⟨_, Cert.KernelValue.run_spec m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.RefValue.result_eq _ _ _ _ _ _ _ _ (hin c).1 (hin c).2.1 (hin c).2.2.1 (hin c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
